-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x41920 : Shape := ⟨2, ![4096, 41920]⟩
abbrev S4096x1 : Shape := ⟨2, ![4096, 1]⟩
abbrev S256x41920 : Shape := ⟨2, ![256, 41920]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S_ : Shape := ⟨0, ![]⟩

class Facts : Prop where
  bcast_S_S4096x41920 : S_.BroadcastsInDim S4096x41920 (![] : Fin 0 → Fin S4096x41920.rank)
  reducesTo_S4096x41920_S_d0_1 : S4096x41920.ReducesTo [0, 1] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S256x41920 : S_.BroadcastsInDim S256x41920 (![] : Fin 0 → Fin S256x41920.rank)
  reducesTo_S256x41920_S_d0_1 : S256x41920.ReducesTo [0, 1] S_
  bcast_S_S256 : S_.BroadcastsInDim S256 (![] : Fin 0 → Fin S256.rank)
  reducesTo_S256_S_d0 : S256.ReducesTo [0] S_
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1x32 .f32) (main_arg12 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S1x32 .f32 := Host.absf main_arg11
  let main_cst_20 : FVec F S_ .f32 := constant S_ .f32 0x7F800000#32
  let main_v55 : FVec F S1x32 .f32 := broadcastInDim S1x32 ![] bcast_S_S1x32 main_cst_20
  let main_v56 : IVec S1x32 1 := cmpf .olt main_v54 main_v55
  let main_c_21 : IVec S_ 1 := constantI S_ 1 1#1
  let main_v57 : IVec S_ 1 := (fun x v => Host.reduce IntOp.andi x v reducesTo_S1x32_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S32x512 .f32) (main_arg8 : FVec F S32 .f32) (main_arg9 : FVec F S32x32 .f32) (main_arg10 : FVec F S32 .f32) (main_arg11 : FVec F S1x32 .f32) (main_arg12 : FVec F S1 .f32) (main_v33 : IVec S_ 1) : IVec S_ 1 :=
  let main_v34 : FVec F S32x512 .f32 := Host.absf main_arg7
  let main_cst_12 : FVec F S_ .f32 := constant S_ .f32 0x7F800000#32
  let main_v35 : FVec F S32x512 .f32 := broadcastInDim S32x512 ![] bcast_S_S32x512 main_cst_12
  let main_v36 : IVec S32x512 1 := cmpf .olt main_v34 main_v35
  let main_c_13 : IVec S_ 1 := constantI S_ 1 1#1
  let main_v37 : IVec S_ 1 := (fun x v => Host.reduce IntOp.andi x v reducesTo_S32x512_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x32 .f32 := Host.absf main_arg9
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S32 .f32 := Host.absf main_arg10
  let main_cst_18 : FVec F S_ .f32 := constant S_ .f32 0x7F800000#32
  let main_v50 : FVec F S32 .f32 := broadcastInDim S32 ![] bcast_S_S32 main_cst_18
  fn_part3 (F := F) main_arg11 main_arg12 main_v48 main_v49 main_v50

def fn_part1 {F : FTy → Type} [FloatOps F] (main_arg4 : FVec F S256 .f32) (main_arg5 : FVec F S256x41920 .f32) (main_arg6 : FVec F S256 .f32) (main_arg7 : FVec F S32x512 .f32) (main_arg8 : FVec F S32 .f32) (main_arg9 : FVec F S32x32 .f32) (main_arg10 : FVec F S32 .f32) (main_arg11 : FVec F S1x32 .f32) (main_arg12 : FVec F S1 .f32) (main_v13 : IVec S_ 1) (main_v16 : IVec S256x41920 1) : IVec S_ 1 :=
  let main_c_5 : IVec S_ 1 := constantI S_ 1 1#1
  let main_v17 : IVec S_ 1 := (fun x v => Host.reduce IntOp.andi x v reducesTo_S256x41920_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x41920 .f32 := Host.absf main_arg5
  let main_cst_8 : FVec F S_ .f32 := constant S_ .f32 0x7F800000#32
  let main_v25 : FVec F S256x41920 .f32 := broadcastInDim S256x41920 ![] bcast_S_S256x41920 main_cst_8
  let main_v26 : IVec S256x41920 1 := cmpf .olt main_v24 main_v25
  let main_c_9 : IVec S_ 1 := constantI S_ 1 1#1
  let main_v27 : IVec S_ 1 := (fun x v => Host.reduce IntOp.andi x v reducesTo_S256x41920_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S4096x41920 .f32) (main_arg1 : FVec F S4096x41920 .f32) (main_arg2 : FVec F S4096x1 .f32) (main_arg3 : FVec F S256x41920 .f32) (main_arg4 : FVec F S256 .f32) (main_arg5 : FVec F S256x41920 .f32) (main_arg6 : FVec F S256 .f32) (main_arg7 : FVec F S32x512 .f32) (main_arg8 : FVec F S32 .f32) (main_arg9 : FVec F S32x32 .f32) (main_arg10 : FVec F S32 .f32) (main_arg11 : FVec F S1x32 .f32) (main_arg12 : FVec F S1 .f32) : IVec S_ 1 :=
  let main_v0 : FVec F S4096x41920 .f32 := Host.absf main_arg0
  let main_cst : FVec F S_ .f32 := constant S_ .f32 0x7F800000#32
  let main_v1 : FVec F S4096x41920 .f32 := broadcastInDim S4096x41920 ![] bcast_S_S4096x41920 main_cst
  let main_v2 : IVec S4096x41920 1 := cmpf .olt main_v0 main_v1
  let main_c : IVec S_ 1 := constantI S_ 1 1#1
  let main_v3 : IVec S_ 1 := (fun x v => Host.reduce IntOp.andi x v reducesTo_S4096x41920_S_d0_1 h_S_) main_v2 main_c
  let main_v4 : FVec F S4096x41920 .f32 := Host.absf main_arg1
  let main_cst_0 : FVec F S_ .f32 := constant S_ .f32 0x7F800000#32
  let main_v5 : FVec F S4096x41920 .f32 := broadcastInDim S4096x41920 ![] bcast_S_S4096x41920 main_cst_0
  let main_v6 : IVec S4096x41920 1 := cmpf .olt main_v4 main_v5
  let main_c_1 : IVec S_ 1 := constantI S_ 1 1#1
  let main_v7 : IVec S_ 1 := (fun x v => Host.reduce IntOp.andi x v reducesTo_S4096x41920_S_d0_1 h_S_) main_v6 main_c_1
  let main_v8 : IVec S_ 1 := andi main_v3 main_v7
  let main_v9 : FVec F S4096x1 .f32 := Host.absf main_arg2
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S256x41920 .f32 := Host.absf main_arg3
  let main_cst_4 : FVec F S_ .f32 := constant S_ .f32 0x7F800000#32
  let main_v15 : FVec F S256x41920 .f32 := broadcastInDim S256x41920 ![] bcast_S_S256x41920 main_cst_4
  let main_v16 : IVec S256x41920 1 := cmpf .olt main_v14 main_v15
  fn_part1 (F := F) main_arg4 main_arg5 main_arg6 main_arg7 main_arg8 main_arg9 main_arg10 main_arg11 main_arg12 main_v13 main_v16
-- ==== Kernel.lean ====
abbrev S4096x41920 : Shape := ⟨2, ![4096, 41920]⟩
abbrev S4096x1 : Shape := ⟨2, ![4096, 1]⟩
abbrev S256x41920 : Shape := ⟨2, ![256, 41920]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S_ : Shape := ⟨0, ![]⟩
abbrev S4096x41984 : Shape := ⟨2, ![4096, 41984]⟩
abbrev S256x41984 : Shape := ⟨2, ![256, 41984]⟩
abbrev S1x256 : Shape := ⟨2, ![1, 256]⟩
abbrev S1x1 : Shape := ⟨2, ![1, 1]⟩
abbrev S2048x1024 : Shape := ⟨2, ![2048, 1024]⟩
abbrev S256x1024 : Shape := ⟨2, ![256, 1024]⟩
abbrev S2048x1 : Shape := ⟨2, ![2048, 1]⟩
abbrev S2048x256 : Shape := ⟨2, ![2048, 256]⟩
abbrev S2048x512 : Shape := ⟨2, ![2048, 512]⟩
abbrev S512x32 : Shape := ⟨2, ![512, 32]⟩
abbrev S2048x32 : Shape := ⟨2, ![2048, 32]⟩
abbrev S32x1 : Shape := ⟨2, ![32, 1]⟩

abbrev nBuf : Space → Nat
  | .hbm => 31
  | .vmem => 22
  | .smem => 0
  | _ => 0

abbrev bufTy : (tb : Table) → Fin (tcTables nBuf tb) → BufTy
  | .hbm, ⟨0, _⟩ => ⟨S4096x41920, .f32⟩
  | .hbm, ⟨1, _⟩ => ⟨S4096x41920, .f32⟩
  | .hbm, ⟨2, _⟩ => ⟨S4096x1, .f32⟩
  | .hbm, ⟨3, _⟩ => ⟨S256x41920, .f32⟩
  | .hbm, ⟨4, _⟩ => ⟨S256, .f32⟩
  | .hbm, ⟨5, _⟩ => ⟨S256x41920, .f32⟩
  | .hbm, ⟨6, _⟩ => ⟨S256, .f32⟩
  | .hbm, ⟨7, _⟩ => ⟨S32x512, .f32⟩
  | .hbm, ⟨8, _⟩ => ⟨S32, .f32⟩
  | .hbm, ⟨9, _⟩ => ⟨S32x32, .f32⟩
  | .hbm, ⟨10, _⟩ => ⟨S32, .f32⟩
  | .hbm, ⟨11, _⟩ => ⟨S1x32, .f32⟩
  | .hbm, ⟨12, _⟩ => ⟨S1, .f32⟩
  | .hbm, ⟨13, _⟩ => ⟨S_, .i32⟩
  | .hbm, ⟨14, _⟩ => ⟨S_, .f32⟩
  | .hbm, ⟨15, _⟩ => ⟨S4096x41984, .f32⟩
  | .hbm, ⟨16, _⟩ => ⟨S_, .i32⟩
  | .hbm, ⟨17, _⟩ => ⟨S_, .f32⟩
  | .hbm, ⟨18, _⟩ => ⟨S4096x41984, .f32⟩
  | .hbm, ⟨19, _⟩ => ⟨S_, .i32⟩
  | .hbm, ⟨20, _⟩ => ⟨S_, .f32⟩
  | .hbm, ⟨21, _⟩ => ⟨S256x41984, .f32⟩
  | .hbm, ⟨22, _⟩ => ⟨S_, .i32⟩
  | .hbm, ⟨23, _⟩ => ⟨S_, .f32⟩
  | .hbm, ⟨24, _⟩ => ⟨S256x41984, .f32⟩
  | .hbm, ⟨25, _⟩ => ⟨S1x256, .f32⟩
  | .hbm, ⟨26, _⟩ => ⟨S1x256, .f32⟩
  | .hbm, ⟨27, _⟩ => ⟨S1x32, .f32⟩
  | .hbm, ⟨28, _⟩ => ⟨S1x32, .f32⟩
  | .hbm, ⟨29, _⟩ => ⟨S1x1, .f32⟩
  | .hbm, ⟨30, _⟩ => ⟨S4096x1, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S2048x1, .f32⟩
  | .local _ .vmem, ⟨9, _⟩ => ⟨S2048x1, .f32⟩
  | .local _ .vmem, ⟨10, _⟩ => ⟨S1x256, .f32⟩
  | .local _ .vmem, ⟨11, _⟩ => ⟨S1x256, .f32⟩
  | .local _ .vmem, ⟨12, _⟩ => ⟨S32x512, .f32⟩
  | .local _ .vmem, ⟨13, _⟩ => ⟨S1x32, .f32⟩
  | .local _ .vmem, ⟨14, _⟩ => ⟨S32x32, .f32⟩
  | .local _ .vmem, ⟨15, _⟩ => ⟨S1x32, .f32⟩
  | .local _ .vmem, ⟨16, _⟩ => ⟨S1x32, .f32⟩
  | .local _ .vmem, ⟨17, _⟩ => ⟨S1x1, .f32⟩
  | .local _ .vmem, ⟨18, _⟩ => ⟨S2048x1, .f32⟩
  | .local _ .vmem, ⟨19, _⟩ => ⟨S2048x1, .f32⟩
  | .local _ .vmem, ⟨20, _⟩ => ⟨S2048x256, .f32⟩
  | .local _ .vmem, ⟨21, _⟩ => ⟨S2048x256, .f32⟩
  | _, _ => ⟨S4096x41920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_call0_v0 : Ref sig .tc := ⟨.hbm, 14, rfl⟩
abbrev main_v0 : Ref sig .tc := ⟨.hbm, 15, rfl⟩
abbrev main_c_0 : Ref sig .tc := ⟨.hbm, 16, rfl⟩
abbrev main_call1_v0 : Ref sig .tc := ⟨.hbm, 17, rfl⟩
abbrev main_v1 : Ref sig .tc := ⟨.hbm, 18, rfl⟩
abbrev main_c_1 : Ref sig .tc := ⟨.hbm, 19, rfl⟩
abbrev main_call2_v0 : Ref sig .tc := ⟨.hbm, 20, rfl⟩
abbrev main_v2 : Ref sig .tc := ⟨.hbm, 21, rfl⟩
abbrev main_c_2 : Ref sig .tc := ⟨.hbm, 22, rfl⟩
abbrev main_call3_v0 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨2, ![2, 41], ![false, false]⟩

def k0_cond2 (i : grid0.Coords) : BitVec 1 :=
  let arg1 : BitVec 32 := BitVec.ofNat 32 (i 1).val
  let c40_i32 : BitVec 32 := 40#32
  let v27 : BitVec 1 := Scalar.cmpi .eq arg1 c40_i32
  let v28 : BitVec 32 := Scalar.extui v27
  let c0_i32_17 : BitVec 32 := 0#32
  let v29 : BitVec 1 := Scalar.cmpi .ne v28 c0_i32_17
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S32x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S32x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S2048x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

class Facts₀ : Prop where
  pads_S4096x41920_S4096x41984_000_0640 : S4096x41920.Pads (![0, 0] : Fin 2 → Nat) ![0, 64] ![0, 0] S4096x41984
  h_S_ : 0 < S_.numel
  pads_S256x41920_S256x41984_000_0640 : S256x41920.Pads (![0, 0] : Fin 2 → Nat) ![0, 64] ![0, 0] S256x41984
  shapeCasts_S256_S1x256 : S256.ShapeCasts S1x256
  shapeCasts_S32_S1x32 : S32.ShapeCasts S1x32
  shapeCasts_S1_S1x1 : S1.ShapeCasts S1x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x1_S2048x1_0_0 : ∀ a, (![0, 0] : Fin 2 → Nat) a + S2048x1.size a ≤ S2048x1.size a
  h_S2048x1 : 0 < S2048x1.numel
  concatenates_S2048x256_S2048x256_S2048x512_d1 : Shape.Concatenates [S2048x256, S2048x256] S2048x512 1
  broadcasts_S2048x1_S2048x512 : S2048x1.Broadcasts S2048x512
  inb_S32x512_S32x512_0_0 : ∀ a, (![0, 0] : Fin 2 → Nat) a + S32x512.size a ≤ S32x512.size a
  h_S32x512 : 0 < S32x512.numel
  transposes_S32x512_p1_0_S512x32 : S32x512.Transposes [1, 0] S512x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S32x32_S32x32_0_0 : ∀ a, (![0, 0] : Fin 2 → Nat) a + S32x32.size a ≤ S32x32.size a
  h_S32x32 : 0 < S32x32.numel
  transposes_S32x32_p1_0_S32x32 : S32x32.Transposes [1, 0] S32x32
  transposes_S1x32_p1_0_S32x1 : S1x32.Transposes [1, 0] S32x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  dot_S2048x1024_S256x1024_S2048x256_1_1_0_0_n_n_wf : DotDims.WF S2048x1024 S256x1024 S2048x256 [1] [1] [0] [0] [] []
  dot_S2048x512_S512x32_S2048x32_1_0_0_1_n_n_wf : DotDims.WF S2048x512 S512x32 S2048x32 [1] [0] [0] [1] [] []
  dot_S2048x32_S32x32_S2048x32_1_0_0_1_n_n_wf : DotDims.WF S2048x32 S32x32 S2048x32 [1] [0] [0] [1] [] []
  dot_S2048x32_S32x1_S2048x1_1_0_0_1_n_n_wf : DotDims.WF S2048x32 S32x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S4096x41984.size a
  hwx0_0 : ∀ i : grid0.Coords, EltTy.bits .f32 = 32 ∨ (Rect.block (s := S4096x41984) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S4096x41984.size a
  hwx0_1 : ∀ i : grid0.Coords, EltTy.bits .f32 = 32 ∨ (Rect.block (s := S4096x41984) S2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x41984.size a
  hwx0_2 : ∀ i : grid0.Coords, EltTy.bits .f32 = 32 ∨ (Rect.block (s := S256x41984) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x41984.size a
  hwx0_3 : ∀ i : grid0.Coords, EltTy.bits .f32 = 32 ∨ (Rect.block (s := S256x41984) S256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S4096x1.size a
  hwx0_4 : ∀ i : grid0.Coords, EltTy.bits .f32 = 32 ∨ (Rect.block (s := S4096x1) S2048x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x512.size a ≤ S32x512.size a
  hwx0_7 : ∀ i : grid0.Coords, EltTy.bits .f32 = 32 ∨ (Rect.block (s := S32x512) S32x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x32.size a ≤ S32x32.size a
  hwx0_9 : ∀ i : grid0.Coords, EltTy.bits .f32 = 32 ∨ (Rect.block (s := S32x32) S32x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x32.size a ≤ S1x32.size a
  hwx0_10 : ∀ i : grid0.Coords, EltTy.bits .f32 = 32 ∨ (Rect.block (s := S1x32) S1x32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x32.size a ≤ S1x32.size a
  hwx0_11 : ∀ i : grid0.Coords, EltTy.bits .f32 = 32 ∨ (Rect.block (s := S1x32) S1x32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1.size a ≤ S1x1.size a
  hwx0_12 : ∀ i : grid0.Coords, EltTy.bits .f32 = 32 ∨ (Rect.block (s := S1x1) S1x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2048x1.size a ≤ S4096x1.size a
  hwx0_13 : ∀ i : grid0.Coords, EltTy.bits .f32 = 32 ∨ (Rect.block (s := S4096x1) S2048x1.size (cc0_transform_13 i) (hinb0_13 i)).WholeWords (EltTy.packing .f32)

variable [Facts₀]

def dot_S2048x1024_S256x1024_S2048x256_1_1_0_0_n_n : DotDims S2048x1024 S256x1024 S2048x256 where
  lhsContracting := [1]
  rhsContracting := [1]
  lhsNonContracting := [0]
  rhsNonContracting := [0]
  lhsBatch := []
  rhsBatch := []
  wf := dot_S2048x1024_S256x1024_S2048x256_1_1_0_0_n_n_wf
def dot_S2048x512_S512x32_S2048x32_1_0_0_1_n_n : DotDims S2048x512 S512x32 S2048x32 where
  lhsContracting := [1]
  rhsContracting := [0]
  lhsNonContracting := [0]
  rhsNonContracting := [1]
  lhsBatch := []
  rhsBatch := []
  wf := dot_S2048x512_S512x32_S2048x32_1_0_0_1_n_n_wf
def dot_S2048x32_S32x32_S2048x32_1_0_0_1_n_n : DotDims S2048x32 S32x32 S2048x32 where
  lhsContracting := [1]
  rhsContracting := [0]
  lhsNonContracting := [0]
  rhsNonContracting := [1]
  lhsBatch := []
  rhsBatch := []
  wf := dot_S2048x32_S32x32_S2048x32_1_0_0_1_n_n_wf
def dot_S2048x32_S32x1_S2048x1_1_0_0_1_n_n : DotDims S2048x32 S32x1 S2048x1 where
  lhsContracting := [1]
  rhsContracting := [0]
  lhsNonContracting := [0]
  rhsNonContracting := [1]
  lhsBatch := []
  rhsBatch := []
  wf := dot_S2048x32_S32x1_S2048x1_1_0_0_1_n_n_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S2048x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S32x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S32x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S1x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S1x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v8) S1x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v9) S2048x1.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev idle0 : Fin 14 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun i => !(k0_cond2 i == 1#1) | ⟨_ + 14, h⟩ => absurd h (Nat.not_lt.2 (Nat.le_add_left _ _))

class Facts : Prop extends Facts₀ where

variable [Facts]
-- ==== ReferenceIdeal.lean ====
abbrev S4096x41920 : Shape := ⟨2, ![4096, 41920]⟩
abbrev S4096x1 : Shape := ⟨2, ![4096, 1]⟩
abbrev S256x41920 : Shape := ⟨2, ![256, 41920]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S41920x256 : Shape := ⟨2, ![41920, 256]⟩
abbrev S4096x256 : Shape := ⟨2, ![4096, 256]⟩
abbrev S1x256 : Shape := ⟨2, ![1, 256]⟩
abbrev S_ : Shape := ⟨0, ![]⟩
abbrev S4096x512 : Shape := ⟨2, ![4096, 512]⟩
abbrev S512x32 : Shape := ⟨2, ![512, 32]⟩
abbrev S4096x32 : Shape := ⟨2, ![4096, 32]⟩
abbrev S32x1 : Shape := ⟨2, ![32, 1]⟩
abbrev S1x1 : Shape := ⟨2, ![1, 1]⟩

abbrev nBuf : Space → Nat
  | .hbm => 72
  | .vmem => 0
  | .smem => 0
  | _ => 0

abbrev bufTy : (tb : Table) → Fin (tcTables nBuf tb) → BufTy
  | .hbm, ⟨0, _⟩ => ⟨S4096x41920, .f32⟩
  | .hbm, ⟨1, _⟩ => ⟨S4096x41920, .f32⟩
  | .hbm, ⟨2, _⟩ => ⟨S4096x1, .f32⟩
  | .hbm, ⟨3, _⟩ => ⟨S256x41920, .f32⟩
  | .hbm, ⟨4, _⟩ => ⟨S256, .f32⟩
  | .hbm, ⟨5, _⟩ => ⟨S256x41920, .f32⟩
  | .hbm, ⟨6, _⟩ => ⟨S256, .f32⟩
  | .hbm, ⟨7, _⟩ => ⟨S32x512, .f32⟩
  | .hbm, ⟨8, _⟩ => ⟨S32, .f32⟩
  | .hbm, ⟨9, _⟩ => ⟨S32x32, .f32⟩
  | .hbm, ⟨10, _⟩ => ⟨S32, .f32⟩
  | .hbm, ⟨11, _⟩ => ⟨S1x32, .f32⟩
  | .hbm, ⟨12, _⟩ => ⟨S1, .f32⟩
  | .hbm, ⟨13, _⟩ => ⟨S41920x256, .f32⟩
  | .hbm, ⟨14, _⟩ => ⟨S4096x256, .f32⟩
  | .hbm, ⟨15, _⟩ => ⟨S1x256, .f32⟩
  | .hbm, ⟨16, _⟩ => ⟨S4096x256, .f32⟩
  | .hbm, ⟨17, _⟩ => ⟨S4096x256, .f32⟩
  | .hbm, ⟨18, _⟩ => ⟨S41920x256, .f32⟩
  | .hbm, ⟨19, _⟩ => ⟨S4096x256, .f32⟩
  | .hbm, ⟨20, _⟩ => ⟨S1x256, .f32⟩
  | .hbm, ⟨21, _⟩ => ⟨S4096x256, .f32⟩
  | .hbm, ⟨22, _⟩ => ⟨S4096x256, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S4096x512, .f32⟩
  | .hbm, ⟨37, _⟩ => ⟨S4096x512, .f32⟩
  | .hbm, ⟨38, _⟩ => ⟨S_, .f32⟩
  | .hbm, ⟨39, _⟩ => ⟨S4096x512, .f32⟩
  | .hbm, ⟨40, _⟩ => ⟨S4096x512, .f32⟩
  | .hbm, ⟨41, _⟩ => ⟨S512x32, .f32⟩
  | .hbm, ⟨42, _⟩ => ⟨S4096x32, .f32⟩
  | .hbm, ⟨43, _⟩ => ⟨S1x32, .f32⟩
  | .hbm, ⟨44, _⟩ => ⟨S4096x32, .f32⟩
  | .hbm, ⟨45, _⟩ => ⟨S4096x32, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S4096x32, .f32⟩
  | .hbm, ⟨50, _⟩ => ⟨S4096x32, .f32⟩
  | .hbm, ⟨51, _⟩ => ⟨S_, .f32⟩
  | .hbm, ⟨52, _⟩ => ⟨S4096x32, .f32⟩
  | .hbm, ⟨53, _⟩ => ⟨S4096x32, .f32⟩
  | .hbm, ⟨54, _⟩ => ⟨S32x32, .f32⟩
  | .hbm, ⟨55, _⟩ => ⟨S4096x32, .f32⟩
  | .hbm, ⟨56, _⟩ => ⟨S1x32, .f32⟩
  | .hbm, ⟨57, _⟩ => ⟨S4096x32, .f32⟩
  | .hbm, ⟨58, _⟩ => ⟨S4096x32, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S4096x32, .f32⟩
  | .hbm, ⟨63, _⟩ => ⟨S4096x32, .f32⟩
  | .hbm, ⟨64, _⟩ => ⟨S_, .f32⟩
  | .hbm, ⟨65, _⟩ => ⟨S4096x32, .f32⟩
  | .hbm, ⟨66, _⟩ => ⟨S4096x32, .f32⟩
  | .hbm, ⟨67, _⟩ => ⟨S32x1, .f32⟩
  | .hbm, ⟨68, _⟩ => ⟨S4096x1, .f32⟩
  | .hbm, ⟨69, _⟩ => ⟨S1x1, .f32⟩
  | .hbm, ⟨70, _⟩ => ⟨S4096x1, .f32⟩
  | .hbm, ⟨71, _⟩ => ⟨S4096x1, .f32⟩
  | _, _ => ⟨S4096x41920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_0 : Ref sig .tc := ⟨.hbm, 33, rfl⟩
abbrev main_cst_1 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_2 : Ref sig .tc := ⟨.hbm, 46, rfl⟩
abbrev main_cst_3 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_4 : Ref sig .tc := ⟨.hbm, 59, rfl⟩
abbrev main_cst_5 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩

abbrev nD : Nat := 1
abbrev τ : Topo := Topo.v7x

variable {F : FTy → Type} [FloatOps F]

class Facts₀ : Prop where
  transposes_S256x41920_S41920x256_1_0 : S256x41920.Transposes [1, 0] S41920x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x1 : S_.BroadcastsInDim S4096x1 (![] : Fin 0 → Fin S4096x1.rank)
  concatenates_S4096x256_S4096x256_S4096x512_d1 : Shape.Concatenates [S4096x256, S4096x256] S4096x512 1
  bcast_S4096x1_S4096x512_0_1 : S4096x1.BroadcastsInDim S4096x512 (![0, 1] : Fin 2 → Fin S4096x512.rank)
  bcast_S_S4096x512 : S_.BroadcastsInDim S4096x512 (![] : Fin 0 → Fin S4096x512.rank)
  transposes_S32x512_S512x32_1_0 : S32x512.Transposes [1, 0] S512x32
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  bcast_S_S4096x32 : S_.BroadcastsInDim S4096x32 (![] : Fin 0 → Fin S4096x32.rank)
  transposes_S32x32_S32x32_1_0 : S32x32.Transposes [1, 0] S32x32
  transposes_S1x32_S32x1_1_0 : S1x32.Transposes [1, 0] S32x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  dot_S4096x41920_S41920x256_S4096x256_1_0_0_1_n_n_wf : DotDims.WF S4096x41920 S41920x256 S4096x256 [1] [0] [0] [1] [] []
  dot_S4096x512_S512x32_S4096x32_1_0_0_1_n_n_wf : DotDims.WF S4096x512 S512x32 S4096x32 [1] [0] [0] [1] [] []
  dot_S4096x32_S32x32_S4096x32_1_0_0_1_n_n_wf : DotDims.WF S4096x32 S32x32 S4096x32 [1] [0] [0] [1] [] []
  dot_S4096x32_S32x1_S4096x1_1_0_0_1_n_n_wf : DotDims.WF S4096x32 S32x1 S4096x1 [1] [0] [0] [1] [] []

variable [Facts₀]

def dot_S4096x41920_S41920x256_S4096x256_1_0_0_1_n_n : DotDims S4096x41920 S41920x256 S4096x256 where
  lhsContracting := [1]
  rhsContracting := [0]
  lhsNonContracting := [0]
  rhsNonContracting := [1]
  lhsBatch := []
  rhsBatch := []
  wf := dot_S4096x41920_S41920x256_S4096x256_1_0_0_1_n_n_wf
def dot_S4096x512_S512x32_S4096x32_1_0_0_1_n_n : DotDims S4096x512 S512x32 S4096x32 where
  lhsContracting := [1]
  rhsContracting := [0]
  lhsNonContracting := [0]
  rhsNonContracting := [1]
  lhsBatch := []
  rhsBatch := []
  wf := dot_S4096x512_S512x32_S4096x32_1_0_0_1_n_n_wf
def dot_S4096x32_S32x32_S4096x32_1_0_0_1_n_n : DotDims S4096x32 S32x32 S4096x32 where
  lhsContracting := [1]
  rhsContracting := [0]
  lhsNonContracting := [0]
  rhsNonContracting := [1]
  lhsBatch := []
  rhsBatch := []
  wf := dot_S4096x32_S32x32_S4096x32_1_0_0_1_n_n_wf
def dot_S4096x32_S32x1_S4096x1_1_0_0_1_n_n : DotDims S4096x32 S32x1 S4096x1 where
  lhsContracting := [1]
  rhsContracting := [0]
  lhsNonContracting := [0]
  rhsNonContracting := [1]
  lhsBatch := []
  rhsBatch := []
  wf := dot_S4096x32_S32x1_S4096x1_1_0_0_1_n_n_wf

class Facts : Prop extends Facts₀ where

variable [Facts]
-- ==== Proof.Pieces.lean ====
/-
  What each control case of the kernel body leaves behind, as plain terms of the body's arithmetic.

  The body keeps two accumulators (one per perspective) in scratch memory across the grid's second axis.
  At the first feature tile (case A) it stores a block of zeros and then the zeros plus this tile's product;
  at every later tile (cases B and C) it stores what the point before left plus this tile's product.
  At the last tile (case C) it also stores the output block: the three clipped layers applied to the two
  finished accumulators plus their biases.
-/
import proofs.«127742_j78331613544881_1_alg».proof.Proof.Gen.KernelIdeal.Frame
import Idealize.ShloMosaic.Lib.Pipeline.Value

noncomputable section

namespace Cert.KernelIdeal.Pieces

open Cert.KernelIdeal Cert.KernelIdeal.Gen Idealize.ShloMosaic Idealize.ShloMosaic.TcCoe Idealize.SL.Sem

variable {F : FTy → Type} [FloatOps F]

/-- The zero offsets of a whole-buffer access, however spelt, are the constant zero function. -/
private theorem hz : (![0, 0] : Fin 2 → Nat) = fun _ => 0 := funext fun a => by fin_cases a <;> rfl

/-- First tile, first accumulator: the zero block plus this tile's product. -/
theorem first_acc0 (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S2048x1 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S32x512 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S1x32 .f32) (harg13 : arg13.IsWhole) (arg14 : Memref sig .tc .vmem S1x1 .f32) (harg14 : arg14.IsWhole) (arg15 : Memref sig .tc .vmem S2048x1 .f32) (harg15 : arg15.IsWhole) (arg16 : Memref sig .tc .vmem S2048x256 .f32) (harg16 : arg16.IsWhole) (arg17 : Memref sig .tc .vmem S2048x256 .f32) (harg17 : arg17.IsWhole) (hc0 : cond0_0 i) (hc1 : ¬cond0_1 i)
    (x0 : Vec F S2048x1024 .f32) (x1 : Vec F S2048x1024 .f32) (x2 : Vec F S256x1024 .f32) (x3 : Vec F S256x1024 .f32) (x4 : Vec F S2048x1 .f32) (x5 : Vec F S1x256 .f32) (x6 : Vec F S1x256 .f32) (x7 : Vec F S32x512 .f32) (x8 : Vec F S1x32 .f32) (x9 : Vec F S32x32 .f32) (x10 : Vec F S1x32 .f32) (x11 : Vec F S1x32 .f32) (x12 : Vec F S1x1 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 = k0_pay3 x0 x2 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12)]
  unfold kernelRun0_A
  dsimp only
  sl_unfold_words
  rw [View.canon_cons_unit_zero (S := S2048x256) hz, View.readCov_unit_zero (S := S2048x256) _ hz]
  simp only [View.readAt_eq_ld, harg2.read_unread, harg4.read_unread, View.ld_unit_zero (S := S2048x1024) hz, View.ld_unit_zero (S := S256x1024) hz]

/-- First tile, second accumulator. -/
theorem first_acc1 (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S2048x1 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S32x512 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S1x32 .f32) (harg13 : arg13.IsWhole) (arg14 : Memref sig .tc .vmem S1x1 .f32) (harg14 : arg14.IsWhole) (arg15 : Memref sig .tc .vmem S2048x1 .f32) (harg15 : arg15.IsWhole) (arg16 : Memref sig .tc .vmem S2048x256 .f32) (harg16 : arg16.IsWhole) (arg17 : Memref sig .tc .vmem S2048x256 .f32) (harg17 : arg17.IsWhole) (hc0 : cond0_0 i) (hc1 : ¬cond0_1 i)
    (x0 : Vec F S2048x1024 .f32) (x1 : Vec F S2048x1024 .f32) (x2 : Vec F S256x1024 .f32) (x3 : Vec F S256x1024 .f32) (x4 : Vec F S2048x1 .f32) (x5 : Vec F S1x256 .f32) (x6 : Vec F S1x256 .f32) (x7 : Vec F S32x512 .f32) (x8 : Vec F S1x32 .f32) (x9 : Vec F S32x32 .f32) (x10 : Vec F S1x32 .f32) (x11 : Vec F S1x32 .f32) (x12 : Vec F S1x1 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 = k0_pay4 x1 x3 (k0_pay2 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12)]
  unfold kernelRun0_A
  dsimp only
  sl_unfold_words
  rw [View.canon_cons_unit_zero (S := S2048x256) hz, View.readCov_unit_zero (S := S2048x256) _ hz]
  simp only [View.readAt_eq_ld, harg3.read_unread, harg5.read_unread, View.ld_unit_zero (S := S2048x1024) hz, View.ld_unit_zero (S := S256x1024) hz]

/-- A middle tile, first accumulator: what the point before left plus this tile's product. -/
theorem mid_acc0 (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S2048x1 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S32x512 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S1x32 .f32) (harg13 : arg13.IsWhole) (arg14 : Memref sig .tc .vmem S1x1 .f32) (harg14 : arg14.IsWhole) (arg15 : Memref sig .tc .vmem S2048x1 .f32) (harg15 : arg15.IsWhole) (arg16 : Memref sig .tc .vmem S2048x256 .f32) (harg16 : arg16.IsWhole) (arg17 : Memref sig .tc .vmem S2048x256 .f32) (harg17 : arg17.IsWhole) (hc0 : ¬cond0_0 i) (hc1 : ¬cond0_1 i)
    (x0 : Vec F S2048x1024 .f32) (x1 : Vec F S2048x1024 .f32) (x2 : Vec F S256x1024 .f32) (x3 : Vec F S256x1024 .f32) (x4 : Vec F S2048x1 .f32) (x5 : Vec F S1x256 .f32) (x6 : Vec F S1x256 .f32) (x7 : Vec F S32x512 .f32) (x8 : Vec F S1x32 .f32) (x9 : Vec F S32x32 .f32) (x10 : Vec F S1x32 .f32) (x11 : Vec F S1x32 .f32) (x12 : Vec F S1x1 .f32) (xs0 : Vec F S2048x256 .f32) (xs1 : Vec F S2048x256 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 xs0 xs1 = k0_pay3 x0 x2 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 xs0 xs1)]
  unfold kernelRun0_B
  dsimp only
  sl_unfold_words
  rw [View.canon_unit_zero (S := S2048x256) hz]
  simp only [View.readAt_eq_ld, harg2.read_unread, harg4.read_unread, harg16.read_unread, View.ld_unit_zero (S := S2048x1024) hz, View.ld_unit_zero (S := S256x1024) hz, View.ld_unit_zero (S := S2048x256) hz]

/-- A middle tile, second accumulator. -/
theorem mid_acc1 (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S2048x1 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S32x512 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S1x32 .f32) (harg13 : arg13.IsWhole) (arg14 : Memref sig .tc .vmem S1x1 .f32) (harg14 : arg14.IsWhole) (arg15 : Memref sig .tc .vmem S2048x1 .f32) (harg15 : arg15.IsWhole) (arg16 : Memref sig .tc .vmem S2048x256 .f32) (harg16 : arg16.IsWhole) (arg17 : Memref sig .tc .vmem S2048x256 .f32) (harg17 : arg17.IsWhole) (hc0 : ¬cond0_0 i) (hc1 : ¬cond0_1 i)
    (x0 : Vec F S2048x1024 .f32) (x1 : Vec F S2048x1024 .f32) (x2 : Vec F S256x1024 .f32) (x3 : Vec F S256x1024 .f32) (x4 : Vec F S2048x1 .f32) (x5 : Vec F S1x256 .f32) (x6 : Vec F S1x256 .f32) (x7 : Vec F S32x512 .f32) (x8 : Vec F S1x32 .f32) (x9 : Vec F S32x32 .f32) (x10 : Vec F S1x32 .f32) (x11 : Vec F S1x32 .f32) (x12 : Vec F S1x1 .f32) (xs0 : Vec F S2048x256 .f32) (xs1 : Vec F S2048x256 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 xs0 xs1 = k0_pay4 x1 x3 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 xs0 xs1)]
  unfold kernelRun0_B
  dsimp only
  sl_unfold_words
  rw [View.canon_unit_zero (S := S2048x256) hz]
  simp only [View.readAt_eq_ld, harg3.read_unread, harg5.read_unread, harg17.read_unread, View.ld_unit_zero (S := S2048x1024) hz, View.ld_unit_zero (S := S256x1024) hz, View.ld_unit_zero (S := S2048x256) hz]

/-- The last tile, first accumulator. -/
theorem last_acc0 (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S2048x1 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S32x512 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S1x32 .f32) (harg13 : arg13.IsWhole) (arg14 : Memref sig .tc .vmem S1x1 .f32) (harg14 : arg14.IsWhole) (arg15 : Memref sig .tc .vmem S2048x1 .f32) (harg15 : arg15.IsWhole) (arg16 : Memref sig .tc .vmem S2048x256 .f32) (harg16 : arg16.IsWhole) (arg17 : Memref sig .tc .vmem S2048x256 .f32) (harg17 : arg17.IsWhole) (hc0 : ¬cond0_0 i) (hc1 : cond0_1 i)
    (x0 : Vec F S2048x1024 .f32) (x1 : Vec F S2048x1024 .f32) (x2 : Vec F S256x1024 .f32) (x3 : Vec F S256x1024 .f32) (x4 : Vec F S2048x1 .f32) (x5 : Vec F S1x256 .f32) (x6 : Vec F S1x256 .f32) (x7 : Vec F S32x512 .f32) (x8 : Vec F S1x32 .f32) (x9 : Vec F S32x32 .f32) (x10 : Vec F S1x32 .f32) (x11 : Vec F S1x32 .f32) (x12 : Vec F S1x1 .f32) (xs0 : Vec F S2048x256 .f32) (xs1 : Vec F S2048x256 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 xs0 xs1 = k0_pay3 x0 x2 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 xs0 xs1)]
  unfold kernelRun0_C
  dsimp only
  sl_unfold_words
  rw [View.canon_unit_zero (S := S2048x256) hz]
  simp only [View.readAt_eq_ld, harg2.read_unread, harg4.read_unread, harg16.read_unread, View.ld_unit_zero (S := S2048x1024) hz, View.ld_unit_zero (S := S256x1024) hz, View.ld_unit_zero (S := S2048x256) hz]

/-- The last tile, second accumulator. -/
theorem last_acc1 (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S2048x1 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S32x512 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S1x32 .f32) (harg13 : arg13.IsWhole) (arg14 : Memref sig .tc .vmem S1x1 .f32) (harg14 : arg14.IsWhole) (arg15 : Memref sig .tc .vmem S2048x1 .f32) (harg15 : arg15.IsWhole) (arg16 : Memref sig .tc .vmem S2048x256 .f32) (harg16 : arg16.IsWhole) (arg17 : Memref sig .tc .vmem S2048x256 .f32) (harg17 : arg17.IsWhole) (hc0 : ¬cond0_0 i) (hc1 : cond0_1 i)
    (x0 : Vec F S2048x1024 .f32) (x1 : Vec F S2048x1024 .f32) (x2 : Vec F S256x1024 .f32) (x3 : Vec F S256x1024 .f32) (x4 : Vec F S2048x1 .f32) (x5 : Vec F S1x256 .f32) (x6 : Vec F S1x256 .f32) (x7 : Vec F S32x512 .f32) (x8 : Vec F S1x32 .f32) (x9 : Vec F S32x32 .f32) (x10 : Vec F S1x32 .f32) (x11 : Vec F S1x32 .f32) (x12 : Vec F S1x1 .f32) (xs0 : Vec F S2048x256 .f32) (xs1 : Vec F S2048x256 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 xs0 xs1 = k0_pay4 x1 x3 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 xs0 xs1)]
  unfold kernelRun0_C
  dsimp only
  sl_unfold_words
  rw [View.canon_unit_zero (S := S2048x256) hz]
  simp only [View.readAt_eq_ld, harg3.read_unread, harg5.read_unread, harg17.read_unread, View.ld_unit_zero (S := S2048x1024) hz, View.ld_unit_zero (S := S256x1024) hz, View.ld_unit_zero (S := S2048x256) hz]

/-- The last tile's output block: the layers over the two finished accumulators. -/
theorem last_out (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S2048x1 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S32x512 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S1x32 .f32) (harg13 : arg13.IsWhole) (arg14 : Memref sig .tc .vmem S1x1 .f32) (harg14 : arg14.IsWhole) (arg15 : Memref sig .tc .vmem S2048x1 .f32) (harg15 : arg15.IsWhole) (arg16 : Memref sig .tc .vmem S2048x256 .f32) (harg16 : arg16.IsWhole) (arg17 : Memref sig .tc .vmem S2048x256 .f32) (harg17 : arg17.IsWhole) (hc0 : ¬cond0_0 i) (hc1 : cond0_1 i)
    (x0 : Vec F S2048x1024 .f32) (x1 : Vec F S2048x1024 .f32) (x2 : Vec F S256x1024 .f32) (x3 : Vec F S256x1024 .f32) (x4 : Vec F S2048x1 .f32) (x5 : Vec F S1x256 .f32) (x6 : Vec F S1x256 .f32) (x7 : Vec F S32x512 .f32) (x8 : Vec F S1x32 .f32) (x9 : Vec F S32x32 .f32) (x10 : Vec F S1x32 .f32) (x11 : Vec F S1x32 .f32) (x12 : Vec F S1x1 .f32) (xs0 : Vec F S2048x256 .f32) (xs1 : Vec F S2048x256 .f32) :
    out0_C_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 xs0 xs1
      = k0_pay5 (k0_pay6 (k0_pay3 x0 x2 xs0) x5 (k0_pay4 x1 x3 xs1) x6 x4 x7 x8) (k0_pay7 x9) (constant S2048x32 .f32 0x00000000#32) x10 x11 x12 := by
  unfold out0_C_13
  rw [View.read_writes_eq_canon _ _ _ (cover0_C_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 xs0 xs1)]
  unfold kernelRun0_C
  dsimp only
  sl_unfold_words
  rw [View.canon_unit_zero (S := S2048x1) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg16.read_unread, harg17.read_unread, View.readCov_unit_zero (S := S2048x256) _ hz, View.ld_unit_zero (S := S2048x1024) hz, View.ld_unit_zero (S := S256x1024) hz, View.ld_unit_zero (S := S2048x256) hz, View.ld_unit_zero (S := S2048x1) hz, View.ld_unit_zero (S := S1x256) hz, View.ld_unit_zero (S := S32x512) hz, View.ld_unit_zero (S := S1x32) hz, View.ld_unit_zero (S := S32x32) hz, View.ld_unit_zero (S := S1x1) hz]

end Cert.KernelIdeal.Pieces

end
-- ==== Proof.Spec.lean ====
/-
  The function both programs compute, written once over the extended reals, row by row.

  Per batch row b the network first forms two 256-wide accumulators, one per perspective:
      wa b h = (sum over the 41920 features f of white b f * Ww h f) + bw h
      ba b h = (sum over the 41920 features f of black b f * Wb h f) + bb h
  then mixes them by the side to move s = stm b: column j of 512 holds
      (1 - s) * [wa | ba] j + s * [ba | wa] j,
  and pushes the mix through three dense layers, each fed the previous values clipped to [0, 1]
  (clip x = min 1 (max 0 x)): 512 -> 32, 32 -> 32, 32 -> 1, each a sum of products plus a bias.
  The literals 1 and 0 are kept as the two f32 words both programs print; they are never evaluated here.
-/
import Idealize.ShloMosaic.PureOps.Ideal
import Idealize.ShloMosaic.PureOps.Ideal.Laws
import Idealize.ShloMosaic.Lib.ValueIdx

noncomputable section

namespace Cert.TwoPerspective

open Idealize.ShloMosaic Idealize.ShloMosaic.ValueIdx

/-- The f32 word of 1.0 and of +0.0 at the extended reals, as both programs print them. -/
abbrev one : EReal := Ideal.ofBits .f32 0x3F800000#32
abbrev zero : EReal := Ideal.ofBits .f32 0x00000000#32

/-- Clipping to [0, 1] in the order both programs spell it: the lower bound first, then the upper. -/
def clip (x : EReal) : EReal := min one (max zero x)

/-- Column j of two 256-wide rows laid side by side, p then q. -/
def side (p q : Fin 256 → EReal) (j : Fin 512) : EReal :=
  if h : j.val < 256 then p ⟨j.val, h⟩ else q ⟨j.val - 256, by have := j.isLt; omega⟩

/-- The side-to-move mix at column j. -/
def mix (wa ba : Fin 256 → EReal) (s : EReal) (j : Fin 512) : EReal :=
  (one - s) * side wa ba j + s * side ba wa j

/-- One output of a dense layer: the sum of products with one weight row, plus the bias. -/
def dense {n : Nat} (x w : Fin n → EReal) (b : EReal) : EReal := (∑ k : Fin n, x k * w k) + b

/-- Output o of the first layer, clipped: what the second layer is fed. -/
def hidden1 (wa ba : Fin 256 → EReal) (s : EReal) (W1 : Fin 32 → Fin 512 → EReal) (b1 : Fin 32 → EReal) (o : Fin 32) : EReal :=
  clip (dense (fun i => clip (mix wa ba s i)) (W1 o) (b1 o))

/-- The second and third layers over the clipped first-layer outputs h. -/
def tail2 (h : Fin 32 → EReal) (W2 : Fin 32 → Fin 32 → EReal) (b2 : Fin 32 → EReal) (Wo : Fin 32 → EReal) (bo : EReal) : EReal :=
  dense (fun k => clip (dense h (W2 k) (b2 k))) Wo bo

/-- The three clipped dense layers after the mix, for one batch row. -/
def tail (wa ba : Fin 256 → EReal) (s : EReal) (W1 : Fin 32 → Fin 512 → EReal) (b1 : Fin 32 → EReal)
    (W2 : Fin 32 → Fin 32 → EReal) (b2 : Fin 32 → EReal) (Wo : Fin 32 → EReal) (bo : EReal) : EReal :=
  tail2 (hidden1 wa ba s W1 b1) W2 b2 Wo bo

/-- A length-41920 row read at any column number: its entry below 41920, zero from there on (the padded columns). -/
def padRead (x : Fin 41920 → EReal) (n : Nat) : EReal := if h : n < 41920 then x ⟨n, h⟩ else 0

/-- One perspective's accumulator before the bias: feature row b against weight row h. -/
def feat (X : (⟨2, ![4096, 41920]⟩ : Shape).Idx → EReal) (W : (⟨2, ![256, 41920]⟩ : Shape).Idx → EReal)
    (b : Fin 4096) (h : Fin 256) : EReal := ∑ f : Fin 41920, X (ix2 b f) * W (ix2 h f)

/-- The network's value at batch row b, as a function of the thirteen argument arrays. -/
def row (white black : (⟨2, ![4096, 41920]⟩ : Shape).Idx → EReal) (stm : (⟨2, ![4096, 1]⟩ : Shape).Idx → EReal)
    (Ww : (⟨2, ![256, 41920]⟩ : Shape).Idx → EReal) (bw : (⟨1, ![256]⟩ : Shape).Idx → EReal)
    (Wb : (⟨2, ![256, 41920]⟩ : Shape).Idx → EReal) (bb : (⟨1, ![256]⟩ : Shape).Idx → EReal)
    (W1 : (⟨2, ![32, 512]⟩ : Shape).Idx → EReal) (b1 : (⟨1, ![32]⟩ : Shape).Idx → EReal)
    (W2 : (⟨2, ![32, 32]⟩ : Shape).Idx → EReal) (b2 : (⟨1, ![32]⟩ : Shape).Idx → EReal)
    (Wo : (⟨2, ![1, 32]⟩ : Shape).Idx → EReal) (bo : (⟨1, ![1]⟩ : Shape).Idx → EReal) (b : Fin 4096) : EReal :=
  tail (fun h => feat white Ww b h + bw (ix1 h)) (fun h => feat black Wb b h + bb (ix1 h)) (stm (ix2 b (0 : Fin 1)))
    (fun o j => W1 (ix2 o j)) (fun o => b1 (ix1 o)) (fun o j => W2 (ix2 o j)) (fun o => b2 (ix1 o))
    (fun j => Wo (ix2 (0 : Fin 1) j)) (bo (ix1 (0 : Fin 1)))

/-- The result array [4096, 1]: entry (b, 0) is the network's value at row b. -/
def result (white black : (⟨2, ![4096, 41920]⟩ : Shape).Idx → EReal) (stm : (⟨2, ![4096, 1]⟩ : Shape).Idx → EReal)
    (Ww : (⟨2, ![256, 41920]⟩ : Shape).Idx → EReal) (bw : (⟨1, ![256]⟩ : Shape).Idx → EReal)
    (Wb : (⟨2, ![256, 41920]⟩ : Shape).Idx → EReal) (bb : (⟨1, ![256]⟩ : Shape).Idx → EReal)
    (W1 : (⟨2, ![32, 512]⟩ : Shape).Idx → EReal) (b1 : (⟨1, ![32]⟩ : Shape).Idx → EReal)
    (W2 : (⟨2, ![32, 32]⟩ : Shape).Idx → EReal) (b2 : (⟨1, ![32]⟩ : Shape).Idx → EReal)
    (Wo : (⟨2, ![1, 32]⟩ : Shape).Idx → EReal) (bo : (⟨1, ![1]⟩ : Shape).Idx → EReal) :
    (⟨2, ![4096, 1]⟩ : Shape).Idx → EReal :=
  fun i => row white black stm Ww bw Wb bb W1 b1 W2 b2 Wo bo ⟨(i 0).val, idx2_lt0 i⟩

/-- The result array read at (b, z): the row function at b (the second coordinate has one value). -/
theorem result_ix2 (white black : (⟨2, ![4096, 41920]⟩ : Shape).Idx → EReal) (stm : (⟨2, ![4096, 1]⟩ : Shape).Idx → EReal)
    (Ww : (⟨2, ![256, 41920]⟩ : Shape).Idx → EReal) (bw : (⟨1, ![256]⟩ : Shape).Idx → EReal)
    (Wb : (⟨2, ![256, 41920]⟩ : Shape).Idx → EReal) (bb : (⟨1, ![256]⟩ : Shape).Idx → EReal)
    (W1 : (⟨2, ![32, 512]⟩ : Shape).Idx → EReal) (b1 : (⟨1, ![32]⟩ : Shape).Idx → EReal)
    (W2 : (⟨2, ![32, 32]⟩ : Shape).Idx → EReal) (b2 : (⟨1, ![32]⟩ : Shape).Idx → EReal)
    (Wo : (⟨2, ![1, 32]⟩ : Shape).Idx → EReal) (bo : (⟨1, ![1]⟩ : Shape).Idx → EReal) (b : Fin 4096) (z : Fin 1) :
    result white black stm Ww bw Wb bb W1 b1 W2 b2 Wo bo (ix2 b z) = row white black stm Ww bw Wb bb W1 b1 W2 b2 Wo bo b := rfl

end Cert.TwoPerspective

end
-- ==== Proof.LibColumn.lean ====
/-
  Column forms of two layout operations, read at an index (general in the sizes).

  A vector of `a` entries cast to an `[a, 1]` column and back, and a column broadcast along a new minor
  axis of extent `b`: what a sum with its reduced axis kept, or a per-row value spread over the lanes,
  prints. Each reads the operand at the row's index.
-/
import Idealize.ShloMosaic.Lib.Pipeline.Value
import Idealize.ShloMosaic.Lib.ValueIdx

namespace Idealize.ShloMosaic.ValueLayout

open Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(i, l)`, the operand at `(i, 0)`, for `1 < a`. -/
theorem broadcastTo_a1_ab_apply {a b : ℕ} (ha : a ≠ 1) (v : (⟨2, ![a, 1]⟩ : Shape).Idx → α)
    (h : (⟨2, ![a, 1]⟩ : Shape).Broadcasts ⟨2, ![a, b]⟩) (i : Fin a) (l : Fin b) :
    broadcastTo ⟨2, ![a, b]⟩ v h (ix2 i l) = v (ix2 i (0 : Fin 1)) :=
  broadcastTo_apply v h _ _ (fun d => by
    match d with
    | ⟨0, _⟩ => show i.val = if a = 1 then 0 else i.val; rw [if_neg ha]
    | ⟨1, _⟩ => show (0 : ℕ) = if (1 : ℕ) = 1 then 0 else l.val; rw [if_pos rfl])

end Idealize.ShloMosaic.ValueLayout
-- ==== Proof.LayerOne.lean ====
/-
  The first layer of the kernel's last-tile arithmetic, read at one entry.

  Given the two finished accumulator blocks S0, S1 (2048 rows of 256), the two bias rows, the side-to-move
  column and the first layer's weights and bias, entry (r, o) of the body's 2048 x 32 value is the clipped first-layer
  output o of row r: biases added, the two accumulators laid side by side both ways and mixed by the side to move,
  clipped, multiplied into weight row o (the kernel transposes the weights, so the product runs over the 512
  columns of row o), bias added, clipped again.
-/
import proofs.«127742_j78331613544881_1_alg».proof.Proof.Gen.KernelIdeal.Skeleton
import proofs.«127742_j78331613544881_1_alg».proof.Proof.Spec
import proofs.«127742_j78331613544881_1_alg».proof.Proof.LibColumn
import Idealize.ShloMosaic.Lib.Pipeline.Value
import Idealize.ShloMosaic.Lib.ValueLayout

noncomputable section

namespace Cert.KernelIdeal.Layers

open Cert.KernelIdeal Cert.KernelIdeal.Gen Idealize.ShloMosaic Idealize.ShloMosaic.ValueIdx Cert.TwoPerspective

/-! ## The non-pointwise operations, each read at one entry -/

/-- A 256-wide bias row repeated down the 2048 rows (after a cast to its own shape, which changes nothing):
    entry (r, h) is the row's entry h. -/
private theorem bias_row256_apply (b : FVec Ideal S1x256 .f32) (r : Fin 2048) (h : Fin 256) :
    broadcastTo S2048x256 (shapeCast S1x256 b shapeCasts_S1x256_S1x256) broadcasts_S1x256_S2048x256 (ix2 r h)
      = b (ix2 (0 : Fin 1) h) := by
  rw [shapeCast_self, broadcastTo_1b_ab_apply]

/-- The first layer's 32-wide bias row repeated down the rows: entry (r, o) is the row's entry o. -/
private theorem bias_row32_apply (b : FVec Ideal S1x32 .f32) (r : Fin 2048) (o : Fin 32) :
    broadcastTo S2048x32 (shapeCast S1x32 b shapeCasts_S1x32_S1x32) broadcasts_S1x32_S2048x32 (ix2 r o)
      = b (ix2 (0 : Fin 1) o) := by
  rw [shapeCast_self, broadcastTo_1b_ab_apply]

/-- Two 256-wide blocks laid side by side along the columns: entry (r, j) reads the first block's row r
    at j below 256 and the second block's row r at j - 256 from there on. -/
private theorem side_by_side_apply (p q : FVec Ideal S2048x256 .f32) (r : Fin 2048) (j : Fin 512) :
    concatenate S2048x512 1 [⟨S2048x256, p⟩, ⟨S2048x256, q⟩] concatenates_S2048x256_S2048x256_S2048x512_d1 (ix2 r j)
      = side (fun h => p (ix2 r h)) (fun h => q (ix2 r h)) j := by
  unfold side
  by_cases hj : j.val < 256
  · rw [dif_pos hj]
    exact concatenate_pair_apply_left 1 p q concatenates_S2048x256_S2048x256_S2048x512_d1 (ix2 r j) rfl
      (ix2 r ⟨j.val, hj⟩) (fun b => match b with
        | ⟨0, _⟩ => rfl
        | ⟨1, _⟩ => rfl)
  · rw [dif_neg hj]
    exact concatenate_pair_apply_right 1 p q concatenates_S2048x256_S2048x256_S2048x512_d1 (ix2 r j) rfl rfl
      (ix2 r ⟨j.val - 256, by have := j.isLt; omega⟩) (fun b hb => match b, hb with
        | ⟨0, _⟩, _ => rfl
        | ⟨1, _⟩, hb => absurd rfl hb)
      (by show (j.val - 256) + 256 = j.val; omega)

/-- The transposed weights: entry (k, o) of the transpose is entry (o, k) of the weights. -/
private theorem transposed_weights_apply (W : FVec Ideal S32x512 .f32) (k : Fin 512) (o : Fin 32) :
    transpose S512x32 [1, 0] W transposes_S32x512_p1_0_S512x32 (ix2 k o) = W (ix2 o k) :=
  transpose_apply [1, 0] W transposes_S32x512_p1_0_S512x32 (ix2 k o) (ix2 o k) (fun b => match b with
    | ⟨0, _⟩ => rfl
    | ⟨1, _⟩ => rfl)

/-- A per-row column spread over the 512 lanes: entry (r, k) is the column's entry r. -/
private theorem spread_column_apply (v : FVec Ideal S2048x1 .f32) (r : Fin 2048) (k : Fin 512) :
    broadcastTo S2048x512 v broadcasts_S2048x1_S2048x512 (ix2 r k) = v (ix2 r (0 : Fin 1)) :=
  ValueLayout.broadcastTo_a1_ab_apply (by decide) v broadcasts_S2048x1_S2048x512 r k

/-! ## The product with the weights: the operand entries a contraction position reads -/

private theorem lhs_first_0 (i : S2048x32.Idx) (q : dot_S2048x512_S512x32_S2048x32_1_0_0_1_n_n.contr.Idx) :
    (dot_S2048x512_S512x32_S2048x32_1_0_0_1_n_n.lhsIdx i q 0).val = (i 0).val := by
  unfold DotDims.lhsIdx
  rw [dif_neg (show ¬(0 : Fin S2048x512.rank) ∈ dot_S2048x512_S512x32_S2048x32_1_0_0_1_n_n.lhsBatch by decide), dif_pos (show (0 : Fin S2048x512.rank) ∈ dot_S2048x512_S512x32_S2048x32_1_0_0_1_n_n.lhsNonContracting by decide)]
  rfl
private theorem lhs_first_1 (i : S2048x32.Idx) (q : dot_S2048x512_S512x32_S2048x32_1_0_0_1_n_n.contr.Idx) :
    (dot_S2048x512_S512x32_S2048x32_1_0_0_1_n_n.lhsIdx i q 1).val = (q ⟨0, by decide⟩).val :=
  dot_S2048x512_S512x32_S2048x32_1_0_0_1_n_n.lhsIdx_val_of_single rfl i q
private theorem rhs_first_0 (i : S2048x32.Idx) (q : dot_S2048x512_S512x32_S2048x32_1_0_0_1_n_n.contr.Idx) :
    (dot_S2048x512_S512x32_S2048x32_1_0_0_1_n_n.rhsIdx i q 0).val = (q ⟨0, by decide⟩).val :=
  dot_S2048x512_S512x32_S2048x32_1_0_0_1_n_n.rhsIdx_val_of_single rfl i q
private theorem rhs_first_1 (i : S2048x32.Idx) (q : dot_S2048x512_S512x32_S2048x32_1_0_0_1_n_n.contr.Idx) :
    (dot_S2048x512_S512x32_S2048x32_1_0_0_1_n_n.rhsIdx i q 1).val = (i 1).val := by
  unfold DotDims.rhsIdx
  rw [dif_neg (show ¬(1 : Fin S512x32.rank) ∈ dot_S2048x512_S512x32_S2048x32_1_0_0_1_n_n.rhsBatch by decide), dif_pos (show (1 : Fin S512x32.rank) ∈ dot_S2048x512_S512x32_S2048x32_1_0_0_1_n_n.rhsNonContracting by decide)]
  rfl

/-- The product into the zero accumulator, at entry (r, o): the sum over the 512 columns k of the left
    operand's entry (r, k) times the right operand's entry (k, o). -/
private theorem product_apply (x : FVec Ideal S2048x512 .f32) (y : FVec Ideal S512x32 .f32) (r : Fin 2048) (o : Fin 32) :
    matmul dot_S2048x512_S512x32_S2048x32_1_0_0_1_n_n none x y (constant (F := Ideal) S2048x32 .f32 0x00000000#32) (ix2 r o)
      = ∑ k : Fin 512, x (ix2 r k) * y (ix2 k o) := by
  refine (Ideal.matmul_constant_zero_apply dot_S2048x512_S512x32_S2048x32_1_0_0_1_n_n none x y (ix2 r o)).trans ?_
  rw [← Equiv.sum_comp (ValueIdx.contrEquiv1 dot_S2048x512_S512x32_S2048x32_1_0_0_1_n_n 512 rfl rfl).symm]
  refine Finset.sum_congr rfl fun k _ => ?_
  have hk := ValueIdx.contrEquiv1_symm_val dot_S2048x512_S512x32_S2048x32_1_0_0_1_n_n 512 rfl rfl k
  have el : dot_S2048x512_S512x32_S2048x32_1_0_0_1_n_n.lhsIdx (ix2 r o) ((ValueIdx.contrEquiv1 dot_S2048x512_S512x32_S2048x32_1_0_0_1_n_n 512 rfl rfl).symm k) = ix2 r k := funext fun a => Fin.ext (by
    match a with
    | ⟨0, _⟩ => exact lhs_first_0 _ _
    | ⟨1, _⟩ => exact (lhs_first_1 _ _).trans hk)
  have er : dot_S2048x512_S512x32_S2048x32_1_0_0_1_n_n.rhsIdx (ix2 r o) ((ValueIdx.contrEquiv1 dot_S2048x512_S512x32_S2048x32_1_0_0_1_n_n 512 rfl rfl).symm k) = ix2 k o := funext fun a => Fin.ext (by
    match a with
    | ⟨0, _⟩ => exact (rhs_first_0 _ _).trans hk
    | ⟨1, _⟩ => exact rhs_first_1 _ _)
  rw [el, er]

/-! ## The layer -/

/-- Entry (r, o) of the first layer's clipped output. -/
theorem first_layer_apply (S0 : Vec Ideal S2048x256 .f32) (bwr : Vec Ideal S1x256 .f32) (S1 : Vec Ideal S2048x256 .f32)
    (bbr : Vec Ideal S1x256 .f32) (stm : Vec Ideal S2048x1 .f32) (W1 : Vec Ideal S32x512 .f32) (b1r : Vec Ideal S1x32 .f32)
    (r : Fin 2048) (o : Fin 32) :
    k0_pay6 (F := Ideal) S0 bwr S1 bbr stm W1 b1r (ix2 r o)
      = hidden1 (fun h => S0 (ix2 r h) + bwr (ix2 (0 : Fin 1) h)) (fun h => S1 (ix2 r h) + bbr (ix2 (0 : Fin 1) h))
          (stm (ix2 r (0 : Fin 1))) (fun o j => W1 (ix2 o j)) (fun o => b1r (ix2 (0 : Fin 1) o)) o := by
  unfold k0_pay6
  -- the two outer clips, the bias and the product, entry by entry
  simp only [minimumf_apply, maximumf_apply, addf_apply, broadcast_apply]
  rw [product_apply, bias_row32_apply]
  simp only [hidden1, dense]
  refine congrArg (fun t => clip (t + b1r (ix2 (0 : Fin 1) o))) (Finset.sum_congr rfl fun k _ => ?_)
  rw [transposed_weights_apply]
  refine congrArg (· * W1 (ix2 o k)) ?_
  -- column k of the clipped mix of row r
  simp only [minimumf_apply, maximumf_apply, addf_apply, mulf_apply, subf_apply, broadcast_apply,
    spread_column_apply, side_by_side_apply, bias_row256_apply]
  rfl

end Cert.KernelIdeal.Layers

end
-- ==== Proof.LayerTwoThree.lean ====
/-
  The second and third layers of the kernel's last-tile arithmetic, read at one entry.

  Given the clipped first-layer block H (2048 rows of 32), entry (r, 0) of the stored 2048 x 1 block is: H's row r
  multiplied into each row of the second layer's weights (transposed by the kernel), bias added, clipped; then
  multiplied into the output layer's single weight row, bias added.
-/
import proofs.«127742_j78331613544881_1_alg».proof.Proof.Gen.KernelIdeal.Skeleton
import proofs.«127742_j78331613544881_1_alg».proof.Proof.Spec
import Idealize.ShloMosaic.Lib.Pipeline.Value
import Idealize.ShloMosaic.Lib.ValueLayout

noncomputable section

namespace Cert.KernelIdeal.Layers

open Cert.KernelIdeal Cert.KernelIdeal.Gen Idealize.ShloMosaic Idealize.ShloMosaic.ValueIdx Cert.TwoPerspective

/-! ## The second layer's product: which entries of its factors an output entry reads

  The left factor is read at (output row, contraction coordinate), the right factor at (contraction coordinate,
  output column); the contraction runs over one axis of 32. -/

private theorem lhs_mid_0 (i : S2048x32.Idx) (q : dot_S2048x32_S32x32_S2048x32_1_0_0_1_n_n.contr.Idx) :
    (dot_S2048x32_S32x32_S2048x32_1_0_0_1_n_n.lhsIdx i q 0).val = (i 0).val := by
  unfold DotDims.lhsIdx
  rw [dif_neg (show ¬(0 : Fin S2048x32.rank) ∈ dot_S2048x32_S32x32_S2048x32_1_0_0_1_n_n.lhsBatch by decide), dif_pos (show (0 : Fin S2048x32.rank) ∈ dot_S2048x32_S32x32_S2048x32_1_0_0_1_n_n.lhsNonContracting by decide)]
  rfl
private theorem lhs_mid_1 (i : S2048x32.Idx) (q : dot_S2048x32_S32x32_S2048x32_1_0_0_1_n_n.contr.Idx) :
    (dot_S2048x32_S32x32_S2048x32_1_0_0_1_n_n.lhsIdx i q 1).val = (q ⟨0, by decide⟩).val :=
  dot_S2048x32_S32x32_S2048x32_1_0_0_1_n_n.lhsIdx_val_of_single rfl i q
private theorem rhs_mid_0 (i : S2048x32.Idx) (q : dot_S2048x32_S32x32_S2048x32_1_0_0_1_n_n.contr.Idx) :
    (dot_S2048x32_S32x32_S2048x32_1_0_0_1_n_n.rhsIdx i q 0).val = (q ⟨0, by decide⟩).val :=
  dot_S2048x32_S32x32_S2048x32_1_0_0_1_n_n.rhsIdx_val_of_single rfl i q
private theorem rhs_mid_1 (i : S2048x32.Idx) (q : dot_S2048x32_S32x32_S2048x32_1_0_0_1_n_n.contr.Idx) :
    (dot_S2048x32_S32x32_S2048x32_1_0_0_1_n_n.rhsIdx i q 1).val = (i 1).val := by
  unfold DotDims.rhsIdx
  rw [dif_neg (show ¬(1 : Fin S32x32.rank) ∈ dot_S2048x32_S32x32_S2048x32_1_0_0_1_n_n.rhsBatch by decide), dif_pos (show (1 : Fin S32x32.rank) ∈ dot_S2048x32_S32x32_S2048x32_1_0_0_1_n_n.rhsNonContracting by decide)]
  rfl

/-- The product into the zero accumulator at entry (r, c): the 32-term sum of row r of the left factor against column c
    of the right factor. -/
private theorem matmul_mid_apply (A : FVec Ideal S2048x32 .f32) (B : FVec Ideal S32x32 .f32) (r : Fin 2048) (c : Fin 32) :
    matmul (F := Ideal) dot_S2048x32_S32x32_S2048x32_1_0_0_1_n_n none A B (constant (F := Ideal) S2048x32 .f32 0x00000000#32) (ix2 r c)
      = ∑ k : Fin 32, A (ix2 r k) * B (ix2 k c) := by
  simp only [matmul]
  rw [Ideal.matmul_constant_zero_apply, ← Equiv.sum_comp (ValueIdx.contrEquiv1 dot_S2048x32_S32x32_S2048x32_1_0_0_1_n_n 32 rfl rfl).symm]
  refine Finset.sum_congr rfl fun k _ => ?_
  have hk := ValueIdx.contrEquiv1_symm_val dot_S2048x32_S32x32_S2048x32_1_0_0_1_n_n 32 rfl rfl k
  have el : dot_S2048x32_S32x32_S2048x32_1_0_0_1_n_n.lhsIdx (ix2 r c) ((ValueIdx.contrEquiv1 dot_S2048x32_S32x32_S2048x32_1_0_0_1_n_n 32 rfl rfl).symm k) = ix2 r k := funext fun a => Fin.ext (by
    match a with
    | ⟨0, _⟩ => exact lhs_mid_0 _ _
    | ⟨1, _⟩ => exact (lhs_mid_1 _ _).trans hk)
  have er : dot_S2048x32_S32x32_S2048x32_1_0_0_1_n_n.rhsIdx (ix2 r c) ((ValueIdx.contrEquiv1 dot_S2048x32_S32x32_S2048x32_1_0_0_1_n_n 32 rfl rfl).symm k) = ix2 k c := funext fun a => Fin.ext (by
    match a with
    | ⟨0, _⟩ => exact (rhs_mid_0 _ _).trans hk
    | ⟨1, _⟩ => exact rhs_mid_1 _ _)
  rw [el, er]

/-! ## The output layer's product: the same reading, with a single output column -/

private theorem lhs_out_0 (i : S2048x1.Idx) (q : dot_S2048x32_S32x1_S2048x1_1_0_0_1_n_n.contr.Idx) :
    (dot_S2048x32_S32x1_S2048x1_1_0_0_1_n_n.lhsIdx i q 0).val = (i 0).val := by
  unfold DotDims.lhsIdx
  rw [dif_neg (show ¬(0 : Fin S2048x32.rank) ∈ dot_S2048x32_S32x1_S2048x1_1_0_0_1_n_n.lhsBatch by decide), dif_pos (show (0 : Fin S2048x32.rank) ∈ dot_S2048x32_S32x1_S2048x1_1_0_0_1_n_n.lhsNonContracting by decide)]
  rfl
private theorem lhs_out_1 (i : S2048x1.Idx) (q : dot_S2048x32_S32x1_S2048x1_1_0_0_1_n_n.contr.Idx) :
    (dot_S2048x32_S32x1_S2048x1_1_0_0_1_n_n.lhsIdx i q 1).val = (q ⟨0, by decide⟩).val :=
  dot_S2048x32_S32x1_S2048x1_1_0_0_1_n_n.lhsIdx_val_of_single rfl i q
private theorem rhs_out_0 (i : S2048x1.Idx) (q : dot_S2048x32_S32x1_S2048x1_1_0_0_1_n_n.contr.Idx) :
    (dot_S2048x32_S32x1_S2048x1_1_0_0_1_n_n.rhsIdx i q 0).val = (q ⟨0, by decide⟩).val :=
  dot_S2048x32_S32x1_S2048x1_1_0_0_1_n_n.rhsIdx_val_of_single rfl i q
private theorem rhs_out_1 (i : S2048x1.Idx) (q : dot_S2048x32_S32x1_S2048x1_1_0_0_1_n_n.contr.Idx) :
    (dot_S2048x32_S32x1_S2048x1_1_0_0_1_n_n.rhsIdx i q 1).val = (i 1).val := by
  unfold DotDims.rhsIdx
  rw [dif_neg (show ¬(1 : Fin S32x1.rank) ∈ dot_S2048x32_S32x1_S2048x1_1_0_0_1_n_n.rhsBatch by decide), dif_pos (show (1 : Fin S32x1.rank) ∈ dot_S2048x32_S32x1_S2048x1_1_0_0_1_n_n.rhsNonContracting by decide)]
  rfl

/-- The product into the zero accumulator at entry (r, c): the 32-term sum of row r of the left factor against column c
    of the right factor. -/
private theorem matmul_out_apply (A : FVec Ideal S2048x32 .f32) (B : FVec Ideal S32x1 .f32) (r : Fin 2048) (c : Fin 1) :
    matmul (F := Ideal) dot_S2048x32_S32x1_S2048x1_1_0_0_1_n_n none A B (constant (F := Ideal) S2048x1 .f32 0x00000000#32) (ix2 r c)
      = ∑ k : Fin 32, A (ix2 r k) * B (ix2 k c) := by
  simp only [matmul]
  rw [Ideal.matmul_constant_zero_apply, ← Equiv.sum_comp (ValueIdx.contrEquiv1 dot_S2048x32_S32x1_S2048x1_1_0_0_1_n_n 32 rfl rfl).symm]
  refine Finset.sum_congr rfl fun k _ => ?_
  have hk := ValueIdx.contrEquiv1_symm_val dot_S2048x32_S32x1_S2048x1_1_0_0_1_n_n 32 rfl rfl k
  have el : dot_S2048x32_S32x1_S2048x1_1_0_0_1_n_n.lhsIdx (ix2 r c) ((ValueIdx.contrEquiv1 dot_S2048x32_S32x1_S2048x1_1_0_0_1_n_n 32 rfl rfl).symm k) = ix2 r k := funext fun a => Fin.ext (by
    match a with
    | ⟨0, _⟩ => exact lhs_out_0 _ _
    | ⟨1, _⟩ => exact (lhs_out_1 _ _).trans hk)
  have er : dot_S2048x32_S32x1_S2048x1_1_0_0_1_n_n.rhsIdx (ix2 r c) ((ValueIdx.contrEquiv1 dot_S2048x32_S32x1_S2048x1_1_0_0_1_n_n 32 rfl rfl).symm k) = ix2 k c := funext fun a => Fin.ext (by
    match a with
    | ⟨0, _⟩ => exact (rhs_out_0 _ _).trans hk
    | ⟨1, _⟩ => exact rhs_out_1 _ _)
  rw [el, er]

/-! ## The two transposes read at an entry -/

/-- The transposed second-layer weights at (k, c) are the weights at (c, k). -/
private theorem transpose_sq_apply (W : Vec Ideal S32x32 .f32) (k c : Fin 32) :
    transpose S32x32 [1, 0] W transposes_S32x32_p1_0_S32x32 (ix2 k c) = W (ix2 c k) :=
  transpose_apply [1, 0] W transposes_S32x32_p1_0_S32x32 (ix2 k c) (ix2 c k) (fun b => match b with
    | ⟨0, _⟩ => rfl
    | ⟨1, _⟩ => rfl)

/-- The output layer's weight row stood up as a column: entry (k, z) is the row's entry (z, k). -/
private theorem transpose_row_apply (W : Vec Ideal S1x32 .f32) (k : Fin 32) (z : Fin 1) :
    transpose S32x1 [1, 0] W transposes_S1x32_p1_0_S32x1 (ix2 k z) = W (ix2 z k) :=
  transpose_apply [1, 0] W transposes_S1x32_p1_0_S32x1 (ix2 k z) (ix2 z k) (fun b => match b with
    | ⟨0, _⟩ => rfl
    | ⟨1, _⟩ => rfl)

/-- Entry (r, z) of the stored output block. -/
theorem last_layers_apply (H : FVec Ideal S2048x32 .f32) (W2 : Vec Ideal S32x32 .f32) (b2r : Vec Ideal S1x32 .f32)
    (Wo : Vec Ideal S1x32 .f32) (bo : Vec Ideal S1x1 .f32) (r : Fin 2048) (z : Fin 1) :
    k0_pay5 (F := Ideal) H (k0_pay7 (F := Ideal) W2) (constant (F := Ideal) S2048x32 .f32 0x00000000#32) b2r Wo bo (ix2 r z)
      = tail2 (fun j => H (ix2 r j)) (fun o j => W2 (ix2 o j)) (fun o => b2r (ix2 (0 : Fin 1) o))
          (fun j => Wo (ix2 (0 : Fin 1) j)) (bo (ix2 (0 : Fin 1) (0 : Fin 1))) := by
  -- the second coordinate ranges over a one-element set
  have hz : z = 0 := Subsingleton.elim z 0
  subst hz
  unfold k0_pay5 k0_pay7
  simp only [tail2, dense, clip]
  -- the last sum is the output product plus the broadcast output bias
  rw [addf_apply, matmul_out_apply]
  refine congrArg₂ (· + ·) (Finset.sum_congr rfl fun k _ => ?_) ?_
  · -- term k: the clipped second-layer output k times the output weight k
    rw [transpose_row_apply, minimumf_apply, maximumf_apply, broadcast_apply, broadcast_apply, addf_apply,
      matmul_mid_apply, shapeCast_self, broadcastTo_1b_ab_apply]
    refine congrArg (· * Wo (ix2 (0 : Fin 1) k)) (congrArg (min _) (congrArg (max _) ?_))
    refine congrArg (· + b2r (ix2 (0 : Fin 1) k)) (Finset.sum_congr rfl fun x _ => ?_)
    -- the kernel multiplies by the transposed weights: entry (x, k) of the transpose is entry (k, x) of the weights
    rw [transpose_sq_apply]
  · -- the output bias, one entry broadcast down the column
    rw [shapeCast_self, broadcastTo_1b_ab_apply]

end Cert.KernelIdeal.Layers

end
-- ==== Proof.BlockNames.lean ====
/-
  Names, of literal vector types, for the blocks the kernel body loads at a grid point, and the batch row a block row is.

  Grid point t has batch half t / 41 and feature tile t % 41 (the grid is 2 x 41, second axis fastest).
  Row r of a 2048-row block at point t is batch row 2048 * (t / 41) + r.
-/
import proofs.«127742_j78331613544881_1_alg».proof.Proof.Gen.KernelIdeal.Frame
import Idealize.ShloMosaic.PureOps.Ideal

noncomputable section

namespace Cert.KernelIdeal.Blocks

open Cert.KernelIdeal Cert.KernelIdeal.Gen Idealize.ShloMosaic Idealize.ShloMosaic.TcCoe Idealize.SL.Sem

variable (m : (ℓ : Loc nD τ sig) → Buf (Elt Ideal) ℓ)

/-- The grid has 82 points. -/
theorem lt82 (t : Fin cfg0.N) : t.val < 82 := lt_of_lt_of_eq t.isLt (show cfg0.N = 82 from N_0)

/-- The batch row that row r of a 2048-row block at point t is. -/
def rowOf (t : Fin cfg0.N) (r : Fin 2048) : Fin 4096 :=
  ⟨2048 * (t.val / 41) + r.val, by have := lt82 t; have := r.isLt; omega⟩

theorem rowOf_val (t : Fin cfg0.N) (r : Fin 2048) : (rowOf t r).val = 2048 * (t.val / 41) + r.val := rfl

/-- The blocks at point t, window by window, in the order the body takes them. -/
abbrev whiteBlk (c : Dev nD) (t : Fin cfg0.N) : Vec Ideal S2048x1024 .f32 := iblk m c 0 t
abbrev blackBlk (c : Dev nD) (t : Fin cfg0.N) : Vec Ideal S2048x1024 .f32 := iblk m c 1 t
abbrev WwBlk (c : Dev nD) (t : Fin cfg0.N) : Vec Ideal S256x1024 .f32 := iblk m c 2 t
abbrev WbBlk (c : Dev nD) (t : Fin cfg0.N) : Vec Ideal S256x1024 .f32 := iblk m c 3 t
abbrev stmBlk (c : Dev nD) (t : Fin cfg0.N) : Vec Ideal S2048x1 .f32 := iblk m c 4 t
abbrev bwBlk (c : Dev nD) (t : Fin cfg0.N) : Vec Ideal S1x256 .f32 := iblk m c 5 t
abbrev bbBlk (c : Dev nD) (t : Fin cfg0.N) : Vec Ideal S1x256 .f32 := iblk m c 6 t
abbrev W1Blk (c : Dev nD) (t : Fin cfg0.N) : Vec Ideal S32x512 .f32 := iblk m c 7 t
abbrev b1Blk (c : Dev nD) (t : Fin cfg0.N) : Vec Ideal S1x32 .f32 := iblk m c 8 t
abbrev W2Blk (c : Dev nD) (t : Fin cfg0.N) : Vec Ideal S32x32 .f32 := iblk m c 9 t
abbrev b2Blk (c : Dev nD) (t : Fin cfg0.N) : Vec Ideal S1x32 .f32 := iblk m c 10 t
abbrev WoBlk (c : Dev nD) (t : Fin cfg0.N) : Vec Ideal S1x32 .f32 := iblk m c 11 t
abbrev boBlk (c : Dev nD) (t : Fin cfg0.N) : Vec Ideal S1x1 .f32 := iblk m c 12 t

end Cert.KernelIdeal.Blocks

end
-- ==== Proof.BlocksPlain.lean ====
/-
  The nine unpadded windows read at an entry, and where the output block lands.

  Window 4 (side to move) takes the 2048 x 1 block at (batch half, 0). Windows 5 to 12 take their whole array at
  every point: the five bias vectors reach the region reshaped by the host to one row ([n] -> [1, n]), the three
  weight matrices as they are. The output window's 2048 x 1 block at point t sits at batch rows
  2048 * (t / 41) .. 2048 * (t / 41) + 2047, and the two points with t % 41 = 40 (the ones that write back)
  cover all 4096 rows between them.
-/
import proofs.«127742_j78331613544881_1_alg».proof.Proof.BlockNames
import Idealize.ShloMosaic.Lib.Pipeline.Value
import Idealize.ShloMosaic.Lib.ValueLayout
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## The index maps, decided once over the 82 grid points -/

/-- Windows 4 and 13 move with the batch half t / 41 alone. -/
private theorem idx_half : ∀ t : Fin cfg0.N,
    win0_4.index t (0 : Fin 2) = t.val / 41 ∧ win0_4.index t (1 : Fin 2) = 0
    ∧ win0_13.index t (0 : Fin 2) = t.val / 41 ∧ win0_13.index t (1 : Fin 2) = 0 :=
  (by decide +kernel : ∀ t : Fin grid0.N, _)

/-- Windows 5 to 12 stay at block index (0, 0) at every point. -/
private theorem idx5 : ∀ t : Fin cfg0.N, win0_5.index t (0 : Fin 2) = 0 ∧ win0_5.index t (1 : Fin 2) = 0 :=
  (by decide +kernel : ∀ t : Fin grid0.N, _)
private theorem idx6 : ∀ t : Fin cfg0.N, win0_6.index t (0 : Fin 2) = 0 ∧ win0_6.index t (1 : Fin 2) = 0 :=
  (by decide +kernel : ∀ t : Fin grid0.N, _)
private theorem idx7 : ∀ t : Fin cfg0.N, win0_7.index t (0 : Fin 2) = 0 ∧ win0_7.index t (1 : Fin 2) = 0 :=
  (by decide +kernel : ∀ t : Fin grid0.N, _)
private theorem idx8 : ∀ t : Fin cfg0.N, win0_8.index t (0 : Fin 2) = 0 ∧ win0_8.index t (1 : Fin 2) = 0 :=
  (by decide +kernel : ∀ t : Fin grid0.N, _)
private theorem idx9 : ∀ t : Fin cfg0.N, win0_9.index t (0 : Fin 2) = 0 ∧ win0_9.index t (1 : Fin 2) = 0 :=
  (by decide +kernel : ∀ t : Fin grid0.N, _)
private theorem idx10 : ∀ t : Fin cfg0.N, win0_10.index t (0 : Fin 2) = 0 ∧ win0_10.index t (1 : Fin 2) = 0 :=
  (by decide +kernel : ∀ t : Fin grid0.N, _)
private theorem idx11 : ∀ t : Fin cfg0.N, win0_11.index t (0 : Fin 2) = 0 ∧ win0_11.index t (1 : Fin 2) = 0 :=
  (by decide +kernel : ∀ t : Fin grid0.N, _)
private theorem idx12 : ∀ t : Fin cfg0.N, win0_12.index t (0 : Fin 2) = 0 ∧ win0_12.index t (1 : Fin 2) = 0 :=
  (by decide +kernel : ∀ t : Fin grid0.N, _)

/-! ## Where an index of a block sits in its array

  On each axis the array coordinate is (block index) * (block extent) + the coordinate inside the block. -/

/-- Row r of window 4's block at point t is batch row 2048 * (t / 41) + r. -/
private theorem emb4 (t : Fin cfg0.N) (r : Fin 2048) (z : Fin 1) :
    ((cfg0.win 4).blk t).view.emb (ix2 r z : S2048x1.Idx) = (ix2 (rowOf t r) (0 : Fin 1) : S4096x1.Idx) := by
  obtain ⟨e0, e1, -, -⟩ := idx_half t
  funext a; apply Fin.ext
  match a with
  | ⟨0, _⟩ => show win0_4.index t (0 : Fin 2) * 2048 + 1 * r.val = 2048 * (t.val / 41) + r.val; omega
  | ⟨1, _⟩ => show win0_4.index t (1 : Fin 2) * 1 + 1 * z.val = 0; omega

/-- A window at block index (0, 0) whose block is the whole array: an index of the block is the same index of the array. -/
private theorem emb5 (t : Fin cfg0.N) (x : Fin 1) (y : Fin 256) :
    ((cfg0.win 5).blk t).view.emb (ix2 x y : S1x256.Idx) = (ix2 x y : S1x256.Idx) := by
  obtain ⟨e0, e1⟩ := idx5 t
  funext a; apply Fin.ext
  match a with
  | ⟨0, _⟩ => show win0_5.index t (0 : Fin 2) * 1 + 1 * x.val = x.val; omega
  | ⟨1, _⟩ => show win0_5.index t (1 : Fin 2) * 256 + 1 * y.val = y.val; omega
private theorem emb6 (t : Fin cfg0.N) (x : Fin 1) (y : Fin 256) :
    ((cfg0.win 6).blk t).view.emb (ix2 x y : S1x256.Idx) = (ix2 x y : S1x256.Idx) := by
  obtain ⟨e0, e1⟩ := idx6 t
  funext a; apply Fin.ext
  match a with
  | ⟨0, _⟩ => show win0_6.index t (0 : Fin 2) * 1 + 1 * x.val = x.val; omega
  | ⟨1, _⟩ => show win0_6.index t (1 : Fin 2) * 256 + 1 * y.val = y.val; omega
private theorem emb7 (t : Fin cfg0.N) (x : Fin 32) (y : Fin 512) :
    ((cfg0.win 7).blk t).view.emb (ix2 x y : S32x512.Idx) = (ix2 x y : S32x512.Idx) := by
  obtain ⟨e0, e1⟩ := idx7 t
  funext a; apply Fin.ext
  match a with
  | ⟨0, _⟩ => show win0_7.index t (0 : Fin 2) * 32 + 1 * x.val = x.val; omega
  | ⟨1, _⟩ => show win0_7.index t (1 : Fin 2) * 512 + 1 * y.val = y.val; omega
private theorem emb8 (t : Fin cfg0.N) (x : Fin 1) (y : Fin 32) :
    ((cfg0.win 8).blk t).view.emb (ix2 x y : S1x32.Idx) = (ix2 x y : S1x32.Idx) := by
  obtain ⟨e0, e1⟩ := idx8 t
  funext a; apply Fin.ext
  match a with
  | ⟨0, _⟩ => show win0_8.index t (0 : Fin 2) * 1 + 1 * x.val = x.val; omega
  | ⟨1, _⟩ => show win0_8.index t (1 : Fin 2) * 32 + 1 * y.val = y.val; omega
private theorem emb9 (t : Fin cfg0.N) (x : Fin 32) (y : Fin 32) :
    ((cfg0.win 9).blk t).view.emb (ix2 x y : S32x32.Idx) = (ix2 x y : S32x32.Idx) := by
  obtain ⟨e0, e1⟩ := idx9 t
  funext a; apply Fin.ext
  match a with
  | ⟨0, _⟩ => show win0_9.index t (0 : Fin 2) * 32 + 1 * x.val = x.val; omega
  | ⟨1, _⟩ => show win0_9.index t (1 : Fin 2) * 32 + 1 * y.val = y.val; omega
private theorem emb10 (t : Fin cfg0.N) (x : Fin 1) (y : Fin 32) :
    ((cfg0.win 10).blk t).view.emb (ix2 x y : S1x32.Idx) = (ix2 x y : S1x32.Idx) := by
  obtain ⟨e0, e1⟩ := idx10 t
  funext a; apply Fin.ext
  match a with
  | ⟨0, _⟩ => show win0_10.index t (0 : Fin 2) * 1 + 1 * x.val = x.val; omega
  | ⟨1, _⟩ => show win0_10.index t (1 : Fin 2) * 32 + 1 * y.val = y.val; omega
private theorem emb11 (t : Fin cfg0.N) (x : Fin 1) (y : Fin 32) :
    ((cfg0.win 11).blk t).view.emb (ix2 x y : S1x32.Idx) = (ix2 x y : S1x32.Idx) := by
  obtain ⟨e0, e1⟩ := idx11 t
  funext a; apply Fin.ext
  match a with
  | ⟨0, _⟩ => show win0_11.index t (0 : Fin 2) * 1 + 1 * x.val = x.val; omega
  | ⟨1, _⟩ => show win0_11.index t (1 : Fin 2) * 32 + 1 * y.val = y.val; omega
private theorem emb12 (t : Fin cfg0.N) (x : Fin 1) (y : Fin 1) :
    ((cfg0.win 12).blk t).view.emb (ix2 x y : S1x1.Idx) = (ix2 x y : S1x1.Idx) := by
  obtain ⟨e0, e1⟩ := idx12 t
  funext a; apply Fin.ext
  match a with
  | ⟨0, _⟩ => show win0_12.index t (0 : Fin 2) * 1 + 1 * x.val = x.val; omega
  | ⟨1, _⟩ => show win0_12.index t (1 : Fin 2) * 1 + 1 * y.val = y.val; omega

/-! ## The five bias arrays as the region finds them

  Each was written by one host reshape [n] -> [1, n] of an argument no host operation writes; nothing after it
  writes it again, so the region finds the argument's elements in row-major order at the new shape. -/

private theorem V_v4 (c : Dev nD) : (V m c main_v4 : S1x256.Idx → EReal)
    = shapeCast S1x256 (m ((c.tc : Thread nD τ).loc main_arg4)) shapeCasts_S256_S1x256 := by
  dsimp only [Gen.V]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results
  rfl
private theorem V_v5 (c : Dev nD) : (V m c main_v5 : S1x256.Idx → EReal)
    = shapeCast S1x256 (m ((c.tc : Thread nD τ).loc main_arg6)) shapeCasts_S256_S1x256 := by
  dsimp only [Gen.V]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results
  rfl
private theorem V_v6 (c : Dev nD) : (V m c main_v6 : S1x32.Idx → EReal)
    = shapeCast S1x32 (m ((c.tc : Thread nD τ).loc main_arg8)) shapeCasts_S32_S1x32 := by
  dsimp only [Gen.V]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results
  rfl
private theorem V_v7 (c : Dev nD) : (V m c main_v7 : S1x32.Idx → EReal)
    = shapeCast S1x32 (m ((c.tc : Thread nD τ).loc main_arg10)) shapeCasts_S32_S1x32 := by
  dsimp only [Gen.V]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results
  rfl
private theorem V_v8 (c : Dev nD) : (V m c main_v8 : S1x1.Idx → EReal)
    = shapeCast S1x1 (m ((c.tc : Thread nD τ).loc main_arg12)) shapeCasts_S1_S1x1 := by
  dsimp only [Gen.V]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results
  rfl

/-! ## The blocks at an entry -/

theorem stm_blk (c : Dev nD) (t : Fin cfg0.N) (r : Fin 2048) (z : Fin 1) :
    stmBlk m c t (ix2 r z) = m ((c.tc : Thread nD τ).loc main_arg2) (ix2 (rowOf t r) (0 : Fin 1)) := by
  show V m c main_arg2 (((cfg0.win 4).blk t).view.emb (ix2 r z : S2048x1.Idx)) = _
  rw [V_main_arg2, emb4]

theorem bw_blk (c : Dev nD) (t : Fin cfg0.N) (z : Fin 1) (h : Fin 256) :
    bwBlk m c t (ix2 z h) = m ((c.tc : Thread nD τ).loc main_arg4) (ix1 h) := by
  show V m c main_v4 (((cfg0.win 5).blk t).view.emb (ix2 z h : S1x256.Idx)) = _
  rw [emb5]
  exact (congrFun (V_v4 m c) _).trans (shapeCast_a_1a_apply _ _ z h)

theorem bb_blk (c : Dev nD) (t : Fin cfg0.N) (z : Fin 1) (h : Fin 256) :
    bbBlk m c t (ix2 z h) = m ((c.tc : Thread nD τ).loc main_arg6) (ix1 h) := by
  show V m c main_v5 (((cfg0.win 6).blk t).view.emb (ix2 z h : S1x256.Idx)) = _
  rw [emb6]
  exact (congrFun (V_v5 m c) _).trans (shapeCast_a_1a_apply _ _ z h)

theorem W1_blk (c : Dev nD) (t : Fin cfg0.N) (o : Fin 32) (j : Fin 512) :
    W1Blk m c t (ix2 o j) = m ((c.tc : Thread nD τ).loc main_arg7) (ix2 o j) := by
  show V m c main_arg7 (((cfg0.win 7).blk t).view.emb (ix2 o j : S32x512.Idx)) = _
  rw [V_main_arg7, emb7]

theorem b1_blk (c : Dev nD) (t : Fin cfg0.N) (z : Fin 1) (o : Fin 32) :
    b1Blk m c t (ix2 z o) = m ((c.tc : Thread nD τ).loc main_arg8) (ix1 o) := by
  show V m c main_v6 (((cfg0.win 8).blk t).view.emb (ix2 z o : S1x32.Idx)) = _
  rw [emb8]
  exact (congrFun (V_v6 m c) _).trans (shapeCast_a_1a_apply _ _ z o)

theorem W2_blk (c : Dev nD) (t : Fin cfg0.N) (o : Fin 32) (j : Fin 32) :
    W2Blk m c t (ix2 o j) = m ((c.tc : Thread nD τ).loc main_arg9) (ix2 o j) := by
  show V m c main_arg9 (((cfg0.win 9).blk t).view.emb (ix2 o j : S32x32.Idx)) = _
  rw [V_main_arg9, emb9]

theorem b2_blk (c : Dev nD) (t : Fin cfg0.N) (z : Fin 1) (o : Fin 32) :
    b2Blk m c t (ix2 z o) = m ((c.tc : Thread nD τ).loc main_arg10) (ix1 o) := by
  show V m c main_v7 (((cfg0.win 10).blk t).view.emb (ix2 z o : S1x32.Idx)) = _
  rw [emb10]
  exact (congrFun (V_v7 m c) _).trans (shapeCast_a_1a_apply _ _ z o)

theorem Wo_blk (c : Dev nD) (t : Fin cfg0.N) (z : Fin 1) (j : Fin 32) :
    WoBlk m c t (ix2 z j) = m ((c.tc : Thread nD τ).loc main_arg11) (ix2 (0 : Fin 1) j) := by
  show V m c main_arg11 (((cfg0.win 11).blk t).view.emb (ix2 z j : S1x32.Idx)) = _
  rw [V_main_arg11, emb11, Subsingleton.elim z (0 : Fin 1)]

theorem bo_blk (c : Dev nD) (t : Fin cfg0.N) (z z' : Fin 1) :
    boBlk m c t (ix2 z z') = m ((c.tc : Thread nD τ).loc main_arg12) (ix1 (0 : Fin 1)) := by
  show V m c main_v8 (((cfg0.win 12).blk t).view.emb (ix2 z z' : S1x1.Idx)) = _
  rw [emb12, Subsingleton.elim z' (0 : Fin 1)]
  exact (congrFun (V_v8 m c) _).trans (shapeCast_a_1a_apply _ _ z (0 : Fin 1))

/-- Row r of the output block at point t is batch row 2048 * (t / 41) + r of the result array. -/
theorem out_emb (t : Fin cfg0.N) (r : Fin 2048) (z : Fin 1) :
    ((cfg0.win 13).blk t).view.emb (ix2 r z : S2048x1.Idx) = (ix2 (rowOf t r) (0 : Fin 1) : S4096x1.Idx) := by
  obtain ⟨-, -, e0, e1⟩ := idx_half t
  funext a; apply Fin.ext
  match a with
  | ⟨0, _⟩ => show win0_13.index t (0 : Fin 2) * 2048 + 1 * r.val = 2048 * (t.val / 41) + r.val; omega
  | ⟨1, _⟩ => show win0_13.index t (1 : Fin 2) * 1 + 1 * z.val = 0; omega

/-- Every entry of the result array lies in the block of a point that writes back. -/
theorem out_cover (i : S4096x1.Idx) :
    ∃ t : Fin cfg0.N, (cfg0.win 13).flush t = true ∧ i ∈ ((cfg0.win 13).blk t).view.set := by
  have hi0 : (i 0).val < 4096 := (i 0).isLt
  have hi1 : (i 1).val < 1 := (i 1).isLt
  -- the last feature tile of the batch half that holds row i 0
  obtain ⟨t, ht⟩ : ∃ t : Fin cfg0.N, t.val = 41 * ((i 0).val / 2048) + 40 :=
    ⟨⟨41 * ((i 0).val / 2048) + 40, lt_of_lt_of_eq (by omega : 41 * ((i 0).val / 2048) + 40 < 82) (show 82 = cfg0.N from N_0.symm)⟩, rfl⟩
  obtain ⟨-, -, e0, e1⟩ := idx_half t
  refine ⟨t, (flush0_13 t).mpr (by omega), ?_⟩
  show i ∈ ((View.whole main_v9).slice (win0_13.rect t)).set
  rw [View.set_slice_whole, Rect.mem_set_unit]
  intro a
  match a with
  | ⟨0, _⟩ => show win0_13.index t (0 : Fin 2) * 2048 ≤ (i 0).val ∧ (i 0).val < win0_13.index t (0 : Fin 2) * 2048 + 2048; omega
  | ⟨1, _⟩ => show win0_13.index t (1 : Fin 2) * 1 ≤ (i 1).val ∧ (i 1).val < win0_13.index t (1 : Fin 2) * 1 + 1; omega

end Cert.KernelIdeal.Blocks

end
-- ==== Proof.TileProduct.lean ====
/-
  One tile's step of an accumulator, read at an entry.

  The body multiplies a 2048 x 1024 block of features into a 256 x 1024 block of weights, contracting the 1024
  columns of both (the casts to the narrower float format are the identity on the extended reals), into a zero
  accumulator, and adds the product to what the scratch held. So entry (r, h) after the step is the entry before
  plus the sum over the tile's 1024 columns of feature (r, j) times weight (h, j). The block the first tile starts
  from is the f32 word of +0.0 everywhere.
-/
import proofs.«127742_j78331613544881_1_alg».proof.Proof.Gen.KernelIdeal.Skeleton
import proofs.«127742_j78331613544881_1_alg».proof.Proof.Spec
import Idealize.ShloMosaic.Lib.Pipeline.Value

noncomputable section

namespace Cert.KernelIdeal.Layers

open Cert.KernelIdeal Cert.KernelIdeal.Gen Idealize.ShloMosaic Idealize.ShloMosaic.ValueIdx Cert.TwoPerspective

/-! ## The product's operand indices

The product's record contracts axis 1 of both operands and keeps axis 0 of each: the left operand's axis 0 is the
output's row, the right operand's axis 0 is the output's column, and axis 1 of either is the contraction position. -/

/-- The left operand's kept axis reads the output's row. -/
private theorem lhs_tile_0 (i : S2048x256.Idx) (q : dot_S2048x1024_S256x1024_S2048x256_1_1_0_0_n_n.contr.Idx) :
    (dot_S2048x1024_S256x1024_S2048x256_1_1_0_0_n_n.lhsIdx i q 0).val = (i 0).val := by
  unfold DotDims.lhsIdx
  rw [dif_neg (show ¬(0 : Fin S2048x1024.rank) ∈ dot_S2048x1024_S256x1024_S2048x256_1_1_0_0_n_n.lhsBatch by decide), dif_pos (show (0 : Fin S2048x1024.rank) ∈ dot_S2048x1024_S256x1024_S2048x256_1_1_0_0_n_n.lhsNonContracting by decide)]
  rfl
/-- The left operand's contracted axis reads the contraction position. -/
private theorem lhs_tile_1 (i : S2048x256.Idx) (q : dot_S2048x1024_S256x1024_S2048x256_1_1_0_0_n_n.contr.Idx) :
    (dot_S2048x1024_S256x1024_S2048x256_1_1_0_0_n_n.lhsIdx i q 1).val = (q ⟨0, by decide⟩).val :=
  dot_S2048x1024_S256x1024_S2048x256_1_1_0_0_n_n.lhsIdx_val_of_single rfl i q
/-- The right operand's kept axis reads the output's column. -/
private theorem rhs_tile_0 (i : S2048x256.Idx) (q : dot_S2048x1024_S256x1024_S2048x256_1_1_0_0_n_n.contr.Idx) :
    (dot_S2048x1024_S256x1024_S2048x256_1_1_0_0_n_n.rhsIdx i q 0).val = (i 1).val := by
  unfold DotDims.rhsIdx
  rw [dif_neg (show ¬(0 : Fin S256x1024.rank) ∈ dot_S2048x1024_S256x1024_S2048x256_1_1_0_0_n_n.rhsBatch by decide), dif_pos (show (0 : Fin S256x1024.rank) ∈ dot_S2048x1024_S256x1024_S2048x256_1_1_0_0_n_n.rhsNonContracting by decide)]
  rfl
/-- The right operand's contracted axis reads the contraction position. -/
private theorem rhs_tile_1 (i : S2048x256.Idx) (q : dot_S2048x1024_S256x1024_S2048x256_1_1_0_0_n_n.contr.Idx) :
    (dot_S2048x1024_S256x1024_S2048x256_1_1_0_0_n_n.rhsIdx i q 1).val = (q ⟨0, by decide⟩).val :=
  dot_S2048x1024_S256x1024_S2048x256_1_1_0_0_n_n.rhsIdx_val_of_single rfl i q

/-- The product into a zero accumulator, at entry (r, h): the sum over the 1024 contraction positions of the left
    operand's (r, j) times the right operand's (h, j). The one-axis contraction index set is re-indexed by its
    coordinate, and the operand indices are read off axis by axis. -/
private theorem tile_product (A : FVec Ideal S2048x1024 .bf16) (B : FVec Ideal S256x1024 .bf16) (r : Fin 2048) (h : Fin 256) :
    matmul dot_S2048x1024_S256x1024_S2048x256_1_1_0_0_n_n none A B (constant (F := Ideal) S2048x256 .f32 0x00000000#32) (ix2 r h)
      = ∑ j : Fin 1024, A (ix2 r j) * B (ix2 h j) := by
  show FloatOps.matmul dot_S2048x1024_S256x1024_S2048x256_1_1_0_0_n_n none A B (constant (F := Ideal) S2048x256 .f32 0x00000000#32) (ix2 r h) = _
  rw [Ideal.matmul_constant_zero_apply, ← Equiv.sum_comp (ValueIdx.contrEquiv1 dot_S2048x1024_S256x1024_S2048x256_1_1_0_0_n_n 1024 rfl rfl).symm]
  refine Finset.sum_congr rfl fun k _ => ?_
  have hk := ValueIdx.contrEquiv1_symm_val dot_S2048x1024_S256x1024_S2048x256_1_1_0_0_n_n 1024 rfl rfl k
  have el : dot_S2048x1024_S256x1024_S2048x256_1_1_0_0_n_n.lhsIdx (ix2 r h) ((ValueIdx.contrEquiv1 dot_S2048x1024_S256x1024_S2048x256_1_1_0_0_n_n 1024 rfl rfl).symm k) = ix2 r k := funext fun a => Fin.ext (by
    match a with
    | ⟨0, _⟩ => exact lhs_tile_0 _ _
    | ⟨1, _⟩ => exact (lhs_tile_1 _ _).trans hk)
  have er : dot_S2048x1024_S256x1024_S2048x256_1_1_0_0_n_n.rhsIdx (ix2 r h) ((ValueIdx.contrEquiv1 dot_S2048x1024_S256x1024_S2048x256_1_1_0_0_n_n 1024 rfl rfl).symm k) = ix2 h k := funext fun a => Fin.ext (by
    match a with
    | ⟨0, _⟩ => exact rhs_tile_0 _ _
    | ⟨1, _⟩ => exact (rhs_tile_1 _ _).trans hk)
  rw [el, er]

/-! ## The accumulator's step and start -/

/-- The white perspective's accumulator after a tile: before, plus the tile's sum of products. -/
theorem acc_step0 (X : Vec Ideal S2048x1024 .f32) (W : Vec Ideal S256x1024 .f32) (prev : Vec Ideal S2048x256 .f32)
    (r : Fin 2048) (h : Fin 256) :
    k0_pay3 (F := Ideal) X W prev (ix2 r h) = prev (ix2 r h) + ∑ j : Fin 1024, X (ix2 r j) * W (ix2 h j) := by
  -- the shape casts are the identity, the sum adds entry by entry, and narrowing the float format changes no value
  unfold k0_pay3
  simp only [shapeCast_self]
  rw [addf_apply, tile_product]
  rfl

/-- The black perspective's accumulator after a tile. -/
theorem acc_step1 (X : Vec Ideal S2048x1024 .f32) (W : Vec Ideal S256x1024 .f32) (prev : Vec Ideal S2048x256 .f32)
    (r : Fin 2048) (h : Fin 256) :
    k0_pay4 (F := Ideal) X W prev (ix2 r h) = prev (ix2 r h) + ∑ j : Fin 1024, X (ix2 r j) * W (ix2 h j) := by
  -- the same body over the black perspective's blocks
  unfold k0_pay4
  simp only [shapeCast_self]
  rw [addf_apply, tile_product]
  rfl

/-- The block the first tile starts the white accumulator from: zero everywhere. -/
theorem start0 (i : S2048x256.Idx) : k0_pay1 (F := Ideal) i = 0 := by
  -- a broadcast scalar read through an identity cast is the scalar: the f32 word of +0.0, which is 0
  unfold k0_pay1
  simp only [shapeCast_self]
  rw [broadcast_apply]
  exact Ideal.ofBits_zero_f32

/-- The block the first tile starts the black accumulator from: zero everywhere. -/
theorem start1 (i : S2048x256.Idx) : k0_pay2 (F := Ideal) i = 0 := by
  unfold k0_pay2
  simp only [shapeCast_self]
  rw [broadcast_apply]
  exact Ideal.ofBits_zero_f32

end Cert.KernelIdeal.Layers

end
-- ==== Proof.BlocksPadded.lean ====
/-
  The four padded windows read at an entry.

  Before the region the host pads each [.., 41920] array with 64 columns of zero (the pad value is the integer 0
  converted to a float, which is 0) to [.., 41984]. Window 0 (white) and window 1 (black) take the 2048 x 1024 block
  at (batch half, feature tile); windows 2 and 3 (the two weight matrices) take the 256 x 1024 block at (0, feature tile).
  So an entry of a block at point t is the padded row read at column 1024 * (t % 41) + j.
-/
import proofs.«127742_j78331613544881_1_alg».proof.Proof.BlockNames
import proofs.«127742_j78331613544881_1_alg».proof.Proof.Spec
import Idealize.ShloMosaic.Lib.Pipeline.Value
import Idealize.ShloMosaic.Lib.KernelVsHost
import Idealize.ShloMosaic.Lib.StableHlo.Run

noncomputable section

namespace Cert.KernelIdeal.Blocks

open Cert.KernelIdeal Cert.KernelIdeal.Gen Idealize.ShloMosaic Idealize.ShloMosaic.TcCoe Idealize.SL.Sem
open Idealize.ShloMosaic.ValueIdx Cert.TwoPerspective

variable (m : (ℓ : Loc nD τ sig) → Buf (Elt Ideal) ℓ)

/-! ## The index maps, the pad value, and a padded row read at a column -/

/-- The four padded windows' block indices at every grid point: (t / 41, t % 41) for the two feature arrays,
    (0, t % 41) for the two weight arrays. Decided over the 82 points. -/
private theorem idx_facts : ∀ t : Fin cfg0.N,
    win0_0.index t (0 : Fin 2) = t.val / 41 ∧ win0_0.index t (1 : Fin 2) = t.val % 41
    ∧ win0_1.index t (0 : Fin 2) = t.val / 41 ∧ win0_1.index t (1 : Fin 2) = t.val % 41
    ∧ win0_2.index t (0 : Fin 2) = 0 ∧ win0_2.index t (1 : Fin 2) = t.val % 41
    ∧ win0_3.index t (0 : Fin 2) = 0 ∧ win0_3.index t (1 : Fin 2) = t.val % 41 :=
  (by decide +kernel : ∀ t : Fin grid0.N, _)

/-- The pad value: the 32-bit integer 0, read signed, is the integer 0, whose conversion is the real 0. -/
private theorem padv_zero (i : S_.Idx) : (sitofp (F := Ideal) .f32 (constantI S_ 32 0#32) : S_.Idx → EReal) i = 0 := by
  show (((BitVec.toInt (0#32) : ℤ) : ℝ) : EReal) = 0
  have h0 : BitVec.toInt (0#32) = 0 := by decide
  rw [h0, Int.cast_zero, EReal.coe_zero]

/-- An [R, 41920] array padded after its second axis by 64 columns of a value that is 0, read at (b, n): column n is
    inside the operand exactly when n < 41920 (no low padding, no interior padding), where the read is the operand's
    entry; from 41920 on it is the pad value, 0. That is the padded row read of the specification. -/
private theorem pad_row_read {R : Nat} (x : (⟨2, ![R, 41920]⟩ : Shape).Idx → EReal) (v : S_.Idx → EReal)
    (h : (⟨2, ![R, 41920]⟩ : Shape).Pads (![0, 0] : Fin 2 → Nat) ![0, 64] ![0, 0] ⟨2, ![R, 41984]⟩) (hu : 0 < S_.numel)
    (hv : ∀ i, v i = 0) (b : Fin R) (n : Fin 41984) :
    pad ⟨2, ![R, 41984]⟩ ![0, 0] ![0, 64] ![0, 0] x v h hu (ix2 b n) = padRead (fun f => x (ix2 b f)) n.val := by
  unfold padRead
  by_cases hn : n.val < 41920
  · rw [dif_pos hn]
    refine pad_apply_of_inside _ _ _ x v h hu (ix2 b n) (ix2 b ⟨n.val, hn⟩) (fun a => ?_)
    match a with
    | ⟨0, _⟩ => show b.val = 0 + b.val * (0 + 1); omega
    | ⟨1, _⟩ => show n.val = 0 + n.val * (0 + 1); omega
  · rw [dif_neg hn]
    refine (pad_apply_of_not_inside _ _ _ x v h hu (ix2 b n) (1 : Fin 2) ?_).trans (hv _)
    show ¬(0 ≤ n.val ∧ (n.val - 0) % (0 + 1) = 0 ∧ (n.val - 0) / (0 + 1) < 41920)
    omega

/-! ## The four padded arrays as the region finds them -/

/-- What the region finds in the padded white array: the white argument with 64 columns of the converted integer 0
    appended to every row (the host operations after the pad leave it alone). -/
private theorem V_main_v0 (c : Dev nD) :
    (V m c main_v0 : S4096x41984.Idx → EReal)
      = pad S4096x41984 ![0, 0] ![0, 64] ![0, 0] (m ((c.tc : Thread nD τ).loc main_arg0))
          (sitofp (F := Ideal) .f32 (constantI S_ 32 0#32)) pads_S4096x41920_S4096x41984_000_0640 h_S_ := by
  dsimp only [Gen.V]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results
  rfl

/-- What the region finds in the padded black array: the black argument with 64 columns of the converted integer 0
    appended to every row (the host operations after the pad leave it alone). -/
private theorem V_main_v1 (c : Dev nD) :
    (V m c main_v1 : S4096x41984.Idx → EReal)
      = pad S4096x41984 ![0, 0] ![0, 64] ![0, 0] (m ((c.tc : Thread nD τ).loc main_arg1))
          (sitofp (F := Ideal) .f32 (constantI S_ 32 0#32)) pads_S4096x41920_S4096x41984_000_0640 h_S_ := by
  dsimp only [Gen.V]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results
  rfl

/-- What the region finds in the padded white-perspective weight array: the white-perspective weight argument with 64 columns of the converted integer 0
    appended to every row (the host operations after the pad leave it alone). -/
private theorem V_main_v2 (c : Dev nD) :
    (V m c main_v2 : S256x41984.Idx → EReal)
      = pad S256x41984 ![0, 0] ![0, 64] ![0, 0] (m ((c.tc : Thread nD τ).loc main_arg3))
          (sitofp (F := Ideal) .f32 (constantI S_ 32 0#32)) pads_S256x41920_S256x41984_000_0640 h_S_ := by
  dsimp only [Gen.V]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results
  rfl

/-- What the region finds in the padded black-perspective weight array: the black-perspective weight argument with 64 columns of the converted integer 0
    appended to every row (the host operations after the pad leave it alone). -/
private theorem V_main_v3 (c : Dev nD) :
    (V m c main_v3 : S256x41984.Idx → EReal)
      = pad S256x41984 ![0, 0] ![0, 64] ![0, 0] (m ((c.tc : Thread nD τ).loc main_arg5))
          (sitofp (F := Ideal) .f32 (constantI S_ 32 0#32)) pads_S256x41920_S256x41984_000_0640 h_S_ := by
  dsimp only [Gen.V]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results
  rfl

/-! ## The blocks read at an entry

  A block's entry (r, j) at point t is the array at (block index * block extent + r, block index * 1024 + j) on the two
  axes; with the decided block indices that is row 2048 * (t / 41) + r (feature arrays) or row r (weight arrays) and
  column 1024 * (t % 41) + j, which stays below 41984 because t % 41 ≤ 40. -/

/-- Entry (r, j) of the white block at point t. -/
theorem white_blk (c : Dev nD) (t : Fin cfg0.N) (r : Fin 2048) (j : Fin 1024) :
    whiteBlk m c t (ix2 r j)
      = padRead (fun f => m ((c.tc : Thread nD τ).loc main_arg0) (ix2 (rowOf t r) f)) (1024 * (t.val % 41) + j.val) := by
  obtain ⟨e0, e1, -⟩ := idx_facts t
  have ht : t.val < 82 := lt82 t
  have hj : j.val < 1024 := j.isLt
  have hcol : 1024 * (t.val % 41) + j.val < 41984 := by omega
  show V m c main_v0 (((cfg0.win 0).blk t).view.emb (ix2 r j)) = _
  have hemb : ((cfg0.win 0).blk t).view.emb (ix2 r j) = ix2 (rowOf t r) ⟨1024 * (t.val % 41) + j.val, hcol⟩ := by
    funext a; apply Fin.ext
    match a with
    | ⟨0, _⟩ => show win0_0.index t (0 : Fin 2) * 2048 + 1 * r.val = 2048 * (t.val / 41) + r.val; omega
    | ⟨1, _⟩ => show win0_0.index t (1 : Fin 2) * 1024 + 1 * j.val = 1024 * (t.val % 41) + j.val; omega
  refine (congrArg (V m c main_v0) hemb).trans ?_
  refine (congrFun (V_main_v0 m c) _).trans ?_
  exact pad_row_read _ _ _ _ padv_zero (rowOf t r) ⟨1024 * (t.val % 41) + j.val, hcol⟩

/-- Entry (r, j) of the black block at point t. -/
theorem black_blk (c : Dev nD) (t : Fin cfg0.N) (r : Fin 2048) (j : Fin 1024) :
    blackBlk m c t (ix2 r j)
      = padRead (fun f => m ((c.tc : Thread nD τ).loc main_arg1) (ix2 (rowOf t r) f)) (1024 * (t.val % 41) + j.val) := by
  obtain ⟨-, -, e0, e1, -⟩ := idx_facts t
  have ht : t.val < 82 := lt82 t
  have hj : j.val < 1024 := j.isLt
  have hcol : 1024 * (t.val % 41) + j.val < 41984 := by omega
  show V m c main_v1 (((cfg0.win 1).blk t).view.emb (ix2 r j)) = _
  have hemb : ((cfg0.win 1).blk t).view.emb (ix2 r j) = ix2 (rowOf t r) ⟨1024 * (t.val % 41) + j.val, hcol⟩ := by
    funext a; apply Fin.ext
    match a with
    | ⟨0, _⟩ => show win0_1.index t (0 : Fin 2) * 2048 + 1 * r.val = 2048 * (t.val / 41) + r.val; omega
    | ⟨1, _⟩ => show win0_1.index t (1 : Fin 2) * 1024 + 1 * j.val = 1024 * (t.val % 41) + j.val; omega
  refine (congrArg (V m c main_v1) hemb).trans ?_
  refine (congrFun (V_main_v1 m c) _).trans ?_
  exact pad_row_read _ _ _ _ padv_zero (rowOf t r) ⟨1024 * (t.val % 41) + j.val, hcol⟩

/-- Entry (h, j) of the white perspective's weight block at point t. -/
theorem Ww_blk (c : Dev nD) (t : Fin cfg0.N) (h : Fin 256) (j : Fin 1024) :
    WwBlk m c t (ix2 h j)
      = padRead (fun f => m ((c.tc : Thread nD τ).loc main_arg3) (ix2 h f)) (1024 * (t.val % 41) + j.val) := by
  obtain ⟨-, -, -, -, e0, e1, -⟩ := idx_facts t
  have ht : t.val < 82 := lt82 t
  have hj : j.val < 1024 := j.isLt
  have hcol : 1024 * (t.val % 41) + j.val < 41984 := by omega
  show V m c main_v2 (((cfg0.win 2).blk t).view.emb (ix2 h j)) = _
  have hemb : ((cfg0.win 2).blk t).view.emb (ix2 h j) = ix2 h ⟨1024 * (t.val % 41) + j.val, hcol⟩ := by
    funext a; apply Fin.ext
    match a with
    | ⟨0, _⟩ => show win0_2.index t (0 : Fin 2) * 256 + 1 * h.val = h.val; omega
    | ⟨1, _⟩ => show win0_2.index t (1 : Fin 2) * 1024 + 1 * j.val = 1024 * (t.val % 41) + j.val; omega
  refine (congrArg (V m c main_v2) hemb).trans ?_
  refine (congrFun (V_main_v2 m c) _).trans ?_
  exact pad_row_read _ _ _ _ padv_zero h ⟨1024 * (t.val % 41) + j.val, hcol⟩

/-- Entry (h, j) of the black perspective's weight block at point t. -/
theorem Wb_blk (c : Dev nD) (t : Fin cfg0.N) (h : Fin 256) (j : Fin 1024) :
    WbBlk m c t (ix2 h j)
      = padRead (fun f => m ((c.tc : Thread nD τ).loc main_arg5) (ix2 h f)) (1024 * (t.val % 41) + j.val) := by
  obtain ⟨-, -, -, -, -, -, e0, e1⟩ := idx_facts t
  have ht : t.val < 82 := lt82 t
  have hj : j.val < 1024 := j.isLt
  have hcol : 1024 * (t.val % 41) + j.val < 41984 := by omega
  show V m c main_v3 (((cfg0.win 3).blk t).view.emb (ix2 h j)) = _
  have hemb : ((cfg0.win 3).blk t).view.emb (ix2 h j) = ix2 h ⟨1024 * (t.val % 41) + j.val, hcol⟩ := by
    funext a; apply Fin.ext
    match a with
    | ⟨0, _⟩ => show win0_3.index t (0 : Fin 2) * 256 + 1 * h.val = h.val; omega
    | ⟨1, _⟩ => show win0_3.index t (1 : Fin 2) * 1024 + 1 * j.val = 1024 * (t.val % 41) + j.val; omega
  refine (congrArg (V m c main_v3) hemb).trans ?_
  refine (congrFun (V_main_v3 m c) _).trans ?_
  exact pad_row_read _ _ _ _ padv_zero h ⟨1024 * (t.val % 41) + j.val, hcol⟩

end Cert.KernelIdeal.Blocks

end
-- ==== Proof.SumLaw.lean ====
/-
  The padded, tiled sum is the plain sum.

  The kernel pads each length-41920 row with 64 zeros to 41984 = 41 * 1024 columns and adds up, tile by tile,
  the products of two padded rows over 41 tiles of 1024 columns. The padded columns contribute 0 * 0 = 0, and
  41 runs of 1024 consecutive columns are exactly the columns 0 .. 41983, so the total is the sum of the
  products over the 41920 real columns. Only commutativity and associativity of addition and 0 * 0 = 0 are
  used, so the law holds on the extended reals with no finiteness assumption.
-/
import proofs.«127742_j78331613544881_1_alg».proof.Proof.Spec
import Mathlib.Algebra.BigOperators.Fin
import Mathlib.Algebra.BigOperators.Intervals

noncomputable section

namespace Cert.TwoPerspective

/-- Consecutive runs of k terms, m of them, are the first k * m terms: by induction on the number of runs,
each further run being appended by the splitting of a sum over an initial segment of the naturals.
Only an additive commutative monoid is needed. -/
private theorem sum_runs {M : Type*} [AddCommMonoid M] (g : ℕ → M) (k : ℕ) :
    ∀ m : ℕ, ∑ s ∈ Finset.range m, ∑ j ∈ Finset.range k, g (k * s + j) = ∑ n ∈ Finset.range (k * m), g n
  | 0 => by simp
  | m + 1 => by
    rw [Finset.sum_range_succ, sum_runs g k m, Nat.mul_succ, Finset.sum_range_add]

/-- A padded row read at a real column is the row's entry there. -/
private theorem padRead_val (x : Fin 41920 → EReal) (f : Fin 41920) : padRead x f.val = x f := by
  unfold padRead
  rw [dif_pos f.isLt]

/-- A padded row read at or beyond column 41920 is zero. -/
private theorem padRead_beyond (x : Fin 41920 → EReal) (n : ℕ) : padRead x (41920 + n) = 0 := by
  unfold padRead
  exact dif_neg (by omega)

/-- Forty-one tiles of 1024 padded columns sum to the 41920 real columns. -/
theorem tiles_sum (x w : Fin 41920 → EReal) :
    ∑ s ∈ Finset.range 41, ∑ j : Fin 1024, padRead x (1024 * s + j.val) * padRead w (1024 * s + j.val)
      = ∑ f : Fin 41920, x f * w f := by
  -- the product of the two padded rows at column n
  let g : ℕ → EReal := fun n => padRead x n * padRead w n
  -- the 41 * 1024 padded columns are the 41920 real ones followed by 64 more
  have hsize : 1024 * 41 = 41920 + 64 := by norm_num
  calc ∑ s ∈ Finset.range 41, ∑ j : Fin 1024, padRead x (1024 * s + j.val) * padRead w (1024 * s + j.val)
      = ∑ s ∈ Finset.range 41, ∑ j ∈ Finset.range 1024, g (1024 * s + j) :=
        -- within a tile, the columns 0 .. 1023 as naturals
        Finset.sum_congr rfl (fun s _ => (Finset.sum_range (fun j => g (1024 * s + j))).symm)
    _ = ∑ n ∈ Finset.range (1024 * 41), g n := sum_runs g 1024 41
    _ = ∑ n ∈ Finset.range (41920 + 64), g n := by rw [hsize]
    _ = ∑ n ∈ Finset.range 41920, g n + ∑ n ∈ Finset.range 64, g (41920 + n) :=
        Finset.sum_range_add g 41920 64
    _ = ∑ n ∈ Finset.range 41920, g n + 0 := by
        -- each padded column gives 0 * 0 = 0
        refine congrArg (fun t => ∑ n ∈ Finset.range 41920, g n + t) (Finset.sum_eq_zero (fun n _ => ?_))
        show padRead x (41920 + n) * padRead w (41920 + n) = 0
        rw [padRead_beyond x n, zero_mul]
    _ = ∑ n ∈ Finset.range 41920, g n := add_zero _
    _ = ∑ f : Fin 41920, g f.val := Finset.sum_range g
    _ = ∑ f : Fin 41920, x f * w f :=
        -- at a real column the padded rows are the rows themselves
        Finset.sum_congr rfl (fun f _ => by
          show padRead x f.val * padRead w f.val = x f * w f
          rw [padRead_val x f, padRead_val w f])

end Cert.TwoPerspective

end
-- ==== Proof.Accumulate.lean ====
/-
  The two accumulators when the last feature tile has been added.

  Over one batch half the grid walks the 41 feature tiles in order. The scratch starts the run at zero plus the
  first tile's product and each later point adds its tile's product, so after the last tile entry (r, h) holds
  zero plus the sum, over the 41 tiles and the 1024 columns of each, of padded feature times padded weight. By the
  tiling law that is the sum over the 41920 real features: the specification's accumulator for batch row
  2048 * (t / 41) + r and weight row h.
-/
import proofs.«127742_j78331613544881_1_alg».proof.Proof.Gen.KernelIdeal.Value
import proofs.«127742_j78331613544881_1_alg».proof.Proof.Pieces
import proofs.«127742_j78331613544881_1_alg».proof.Proof.TileProduct
import proofs.«127742_j78331613544881_1_alg».proof.Proof.BlocksPadded
import proofs.«127742_j78331613544881_1_alg».proof.Proof.SumLaw

noncomputable section

namespace Cert.KernelIdeal.Accumulate

open Cert.KernelIdeal Cert.KernelIdeal.Gen Cert.KernelIdeal.Value Cert.KernelIdeal.Blocks Cert.KernelIdeal.Layers
open Idealize.ShloMosaic Idealize.ShloMosaic.TcCoe Idealize.SL.Sem Idealize.ShloMosaic.ValueIdx Cert.TwoPerspective

variable (m : (ℓ : Loc nD τ sig) → Buf (Elt Ideal) ℓ)

/-! ## The white accumulator -/

/-- Point n's addend to the white accumulator at an entry: the sum over the tile's 1024 columns of feature block
    times weight block. It is a function of every natural number; past the grid it is zero and is never used. -/
private def tile0 (c : Dev nD) (n : ℕ) : Vec Ideal S2048x256 .f32 := fun i =>
  if hn : n < cfg0.N then
    ∑ j : Fin 1024, whiteBlk m c ⟨n, hn⟩ (ix2 (⟨(i 0).val, idx2_lt0 i⟩ : Fin 2048) j)
      * WwBlk m c ⟨n, hn⟩ (ix2 (⟨(i 1).val, idx2_lt1 i⟩ : Fin 256) j)
  else 0

/-- The addend at an entry built from its two coordinates, at a point of the grid. -/
private theorem tile0_ix2 (c : Dev nD) (n : ℕ) (hn : n < cfg0.N) (r : Fin 2048) (h : Fin 256) :
    tile0 m c n (ix2 r h) = ∑ j : Fin 1024, whiteBlk m c ⟨n, hn⟩ (ix2 r j) * WwBlk m c ⟨n, hn⟩ (ix2 h j) := by
  unfold tile0
  rw [dif_pos hn]

/-- At the first tile of a batch half the scratch is left holding zero plus that tile's addend: the case stores
    the zero block's step, and the zero block is 0 at every entry. -/
private theorem first0 (c : Dev nD) (n : ℕ) (hn : n < cfg0.N) (h0 : n % 41 = 0)
    (acc : Vec Ideal S2048x256 .f32) (i : S2048x256.Idx) :
    scAt0_0 m c n hn acc i = 0 + tile0 m c n i := by
  obtain ⟨r, h, rfl⟩ : ∃ (r : Fin 2048) (h : Fin 256), i = ix2 r h := ⟨i 0, i 1, eq_ix2 i⟩
  have h1 : ¬n % 41 = 40 := by omega
  rw [tile0_ix2 m c n hn]
  unfold scAt0_0
  rw [dif_pos h0, dif_neg h1, Pieces.first_acc0]
  refine (acc_step0 _ _ _ r h).trans ?_
  rw [start0]

/-- At every later tile the scratch is left holding what it held plus that tile's addend, whether or not the
    tile is the last one: both cases store the step over the carried block. -/
private theorem later0 (c : Dev nD) (n : ℕ) (hn : n < cfg0.N) (h0 : ¬n % 41 = 0)
    (acc : Vec Ideal S2048x256 .f32) (i : S2048x256.Idx) :
    scAt0_0 m c n hn acc i = acc i + tile0 m c n i := by
  obtain ⟨r, h, rfl⟩ : ∃ (r : Fin 2048) (h : Fin 256), i = ix2 r h := ⟨i 0, i 1, eq_ix2 i⟩
  rw [tile0_ix2 m c n hn]
  unfold scAt0_0
  rw [dif_neg h0]
  by_cases h1 : n % 41 = 40
  · rw [dif_pos h1, Pieces.last_acc0]
    exact acc_step0 _ _ _ r h
  · rw [dif_neg h1, Pieces.mid_acc0]
    exact acc_step0 _ _ _ r h

/-- The white accumulator after the last tile of a batch half. -/
theorem acc0_last (c : Dev nD) (t : Fin cfg0.N) (h40 : t.val % 41 = 40) (r : Fin 2048) (h : Fin 256) :
    (outsAt0 m c t.val t.isLt).2.1 (ix2 r h)
      = feat (m ((c.tc : Thread nD τ).loc main_arg0)) (m ((c.tc : Thread nD τ).loc main_arg3)) (rowOf t r) h := by
  have ht := lt82 t
  have hN : cfg0.N = 82 := N_0
  -- tile s of this batch half, at entry (r, h): padded feature row times padded weight row over the tile's columns
  have hsum : ∀ s ∈ Finset.range 41, tile0 m c (41 * (t.val / 41) + s) (ix2 r h)
      = ∑ j : Fin 1024,
          padRead (fun f => m ((c.tc : Thread nD τ).loc main_arg0) (ix2 (rowOf t r) f)) (1024 * s + j.val)
            * padRead (fun f => m ((c.tc : Thread nD τ).loc main_arg3) (ix2 h f)) (1024 * s + j.val) := by
    intro s hs
    have hs' := Finset.mem_range.mp hs
    have hlt : 41 * (t.val / 41) + s < cfg0.N := by omega
    -- point 41 * (t / 41) + s is in the same batch half as t and is its tile s
    have hrow : rowOf ⟨41 * (t.val / 41) + s, hlt⟩ r = rowOf t r :=
      Fin.ext (by rw [rowOf_val, rowOf_val]; dsimp only; omega)
    have hmod : (41 * (t.val / 41) + s) % 41 = s := by omega
    rw [tile0_ix2 m c _ hlt]
    refine Finset.sum_congr rfl fun j _ => ?_
    rw [white_blk, Ww_blk, hrow]
    dsimp only
    rw [hmod]
  -- the scratch after point t is the fold of the run from the half's first point
  refine (congrFun (soutsAt0_0_eq m c t) (ix2 r h)).trans ?_
  -- the fold is zero plus the sum of the addends of the points of the run
  refine (Pipeline.accAt_add_apply _ _ (fun _ => (0 : EReal)) (tile0 m c) _ 40 ?_ ?_ _ (by omega) _ (ix2 r h)).trans ?_
  · intro hb i
    exact first0 m c _ hb (by omega) _ i
  · intro n hn acc i hlo hhi
    exact later0 m c n hn (by omega) acc i
  -- forty-one tiles of 1024 padded columns are the 41920 features
  rw [h40, Finset.sum_congr rfl hsum, tiles_sum]
  exact zero_add _

/-! ## The black accumulator -/

/-- Point n's addend to the black accumulator at an entry: the sum over the tile's 1024 columns of feature block
    times weight block. It is a function of every natural number; past the grid it is zero and is never used. -/
private def tile1 (c : Dev nD) (n : ℕ) : Vec Ideal S2048x256 .f32 := fun i =>
  if hn : n < cfg0.N then
    ∑ j : Fin 1024, blackBlk m c ⟨n, hn⟩ (ix2 (⟨(i 0).val, idx2_lt0 i⟩ : Fin 2048) j)
      * WbBlk m c ⟨n, hn⟩ (ix2 (⟨(i 1).val, idx2_lt1 i⟩ : Fin 256) j)
  else 0

/-- The addend at an entry built from its two coordinates, at a point of the grid. -/
private theorem tile1_ix2 (c : Dev nD) (n : ℕ) (hn : n < cfg0.N) (r : Fin 2048) (h : Fin 256) :
    tile1 m c n (ix2 r h) = ∑ j : Fin 1024, blackBlk m c ⟨n, hn⟩ (ix2 r j) * WbBlk m c ⟨n, hn⟩ (ix2 h j) := by
  unfold tile1
  rw [dif_pos hn]

/-- At the first tile of a batch half the scratch is left holding zero plus that tile's addend: the case stores
    the zero block's step, and the zero block is 0 at every entry. -/
private theorem first1 (c : Dev nD) (n : ℕ) (hn : n < cfg0.N) (h0 : n % 41 = 0)
    (acc : Vec Ideal S2048x256 .f32) (i : S2048x256.Idx) :
    scAt0_1 m c n hn acc i = 0 + tile1 m c n i := by
  obtain ⟨r, h, rfl⟩ : ∃ (r : Fin 2048) (h : Fin 256), i = ix2 r h := ⟨i 0, i 1, eq_ix2 i⟩
  have h1 : ¬n % 41 = 40 := by omega
  rw [tile1_ix2 m c n hn]
  unfold scAt0_1
  rw [dif_pos h0, dif_neg h1, Pieces.first_acc1]
  refine (acc_step1 _ _ _ r h).trans ?_
  rw [start1]

/-- At every later tile the scratch is left holding what it held plus that tile's addend, whether or not the
    tile is the last one: both cases store the step over the carried block. -/
private theorem later1 (c : Dev nD) (n : ℕ) (hn : n < cfg0.N) (h0 : ¬n % 41 = 0)
    (acc : Vec Ideal S2048x256 .f32) (i : S2048x256.Idx) :
    scAt0_1 m c n hn acc i = acc i + tile1 m c n i := by
  obtain ⟨r, h, rfl⟩ : ∃ (r : Fin 2048) (h : Fin 256), i = ix2 r h := ⟨i 0, i 1, eq_ix2 i⟩
  rw [tile1_ix2 m c n hn]
  unfold scAt0_1
  rw [dif_neg h0]
  by_cases h1 : n % 41 = 40
  · rw [dif_pos h1, Pieces.last_acc1]
    exact acc_step1 _ _ _ r h
  · rw [dif_neg h1, Pieces.mid_acc1]
    exact acc_step1 _ _ _ r h

/-- The black accumulator after the last tile of a batch half. -/
theorem acc1_last (c : Dev nD) (t : Fin cfg0.N) (h40 : t.val % 41 = 40) (r : Fin 2048) (h : Fin 256) :
    (outsAt0 m c t.val t.isLt).2.2 (ix2 r h)
      = feat (m ((c.tc : Thread nD τ).loc main_arg1)) (m ((c.tc : Thread nD τ).loc main_arg5)) (rowOf t r) h := by
  have ht := lt82 t
  have hN : cfg0.N = 82 := N_0
  -- tile s of this batch half, at entry (r, h): padded feature row times padded weight row over the tile's columns
  have hsum : ∀ s ∈ Finset.range 41, tile1 m c (41 * (t.val / 41) + s) (ix2 r h)
      = ∑ j : Fin 1024,
          padRead (fun f => m ((c.tc : Thread nD τ).loc main_arg1) (ix2 (rowOf t r) f)) (1024 * s + j.val)
            * padRead (fun f => m ((c.tc : Thread nD τ).loc main_arg5) (ix2 h f)) (1024 * s + j.val) := by
    intro s hs
    have hs' := Finset.mem_range.mp hs
    have hlt : 41 * (t.val / 41) + s < cfg0.N := by omega
    -- point 41 * (t / 41) + s is in the same batch half as t and is its tile s
    have hrow : rowOf ⟨41 * (t.val / 41) + s, hlt⟩ r = rowOf t r :=
      Fin.ext (by rw [rowOf_val, rowOf_val]; dsimp only; omega)
    have hmod : (41 * (t.val / 41) + s) % 41 = s := by omega
    rw [tile1_ix2 m c _ hlt]
    refine Finset.sum_congr rfl fun j _ => ?_
    rw [black_blk, Wb_blk, hrow]
    dsimp only
    rw [hmod]
  -- the scratch after point t is the fold of the run from the half's first point
  refine (congrFun (soutsAt0_1_eq m c t) (ix2 r h)).trans ?_
  -- the fold is zero plus the sum of the addends of the points of the run
  refine (Pipeline.accAt_add_apply _ _ (fun _ => (0 : EReal)) (tile1 m c) _ 40 ?_ ?_ _ (by omega) _ (ix2 r h)).trans ?_
  · intro hb i
    exact first1 m c _ hb (by omega) _ i
  · intro n hn acc i hlo hhi
    exact later1 m c n hn (by omega) acc i
  -- forty-one tiles of 1024 padded columns are the 41920 features
  rw [h40, Finset.sum_congr rfl hsum, tiles_sum]
  exact zero_add _

end Cert.KernelIdeal.Accumulate

end
-- ==== Proof.Final.lean ====
/-
  What the kernel's result array holds after the run: the specification's result.

  Only the last feature tile of each batch half writes the output block back. There the body stores, for each of its
  2048 rows, the three clipped layers applied to the two finished accumulators plus their biases and mixed by that
  row's side to move. The finished accumulators are the specification's sums over all 41920 features, the blocks of
  the small arrays are the arrays themselves, and row r of the block is batch row 2048 * (t / 41) + r: so what the
  point writes back is its block of the specification's result array. The two writing points cover all 4096 rows.
-/
import proofs.«127742_j78331613544881_1_alg».proof.Proof.Gen.KernelIdeal.Value
import proofs.«127742_j78331613544881_1_alg».proof.Proof.Pieces
import proofs.«127742_j78331613544881_1_alg».proof.Proof.LayerOne
import proofs.«127742_j78331613544881_1_alg».proof.Proof.LayerTwoThree
import proofs.«127742_j78331613544881_1_alg».proof.Proof.BlocksPlain
import proofs.«127742_j78331613544881_1_alg».proof.Proof.Accumulate
import proofs.«127742_j78331613544881_1_alg».proof.Proof.Spec

noncomputable section

namespace Cert.KernelIdeal.Final

open Cert.KernelIdeal Cert.KernelIdeal.Gen Cert.KernelIdeal.Value Cert.KernelIdeal.Blocks Cert.KernelIdeal.Layers
open Cert.KernelIdeal.Accumulate
open Idealize.ShloMosaic Idealize.ShloMosaic.TcCoe Idealize.SL.Sem Idealize.ShloMosaic.ValueIdx Cert.TwoPerspective
open Idealize.ShloMosaic.Pipeline (Dat)

variable (m : (ℓ : Loc nD τ sig) → Buf (Elt Ideal) ℓ) (ρ : Dev nD → PrngReg)

/-- The specification's result array at the launch contents of the thirteen arguments. -/
abbrev specArr (c : Dev nD) : Buf (Elt Ideal) ((c.tc : Thread nD τ).loc main_v9) :=
  result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))

/-- At a last-tile point the first accumulator, as the frame names it, is this point's update of what the point before left. -/
theorem acc0_is_update (c : Dev nD) (t : Fin cfg0.N) (h0 : ¬t.val % 41 = 0) (h40 : t.val % 41 = 40) :
    (outsAt0 m c t.val t.isLt).2.1 = k0_pay3 (iblk m c 0 t) (iblk m c 2 t) (outsAt0 m c (t.val - 1) (Nat.lt_of_le_of_lt (Nat.sub_le _ _) t.isLt)).2.1 := by
  rw [outsAt0_C m c t h0 h40]
  dsimp only
  exact Pieces.last_acc0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun hh => h0 ((hcond0_0 t).mp hh)) ((hcond0_1 t).mpr h40) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.1 (outsAt0 m c (t.val - 1) (Nat.lt_of_le_of_lt (Nat.sub_le _ _) t.isLt)).2.2

/-- The same for the second accumulator. -/
theorem acc1_is_update (c : Dev nD) (t : Fin cfg0.N) (h0 : ¬t.val % 41 = 0) (h40 : t.val % 41 = 40) :
    (outsAt0 m c t.val t.isLt).2.2 = k0_pay4 (iblk m c 1 t) (iblk m c 3 t) (outsAt0 m c (t.val - 1) (Nat.lt_of_le_of_lt (Nat.sub_le _ _) t.isLt)).2.2 := by
  rw [outsAt0_C m c t h0 h40]
  dsimp only
  exact Pieces.last_acc1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun hh => h0 ((hcond0_0 t).mp hh)) ((hcond0_1 t).mpr h40) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.1 (outsAt0 m c (t.val - 1) (Nat.lt_of_le_of_lt (Nat.sub_le _ _) t.isLt)).2.2

/-- The block a last-tile point leaves in the output's staging buffer: the layers over the two finished accumulators. -/
theorem out_block (c : Dev nD) (t : Fin cfg0.N) (h0 : ¬t.val % 41 = 0) (h40 : t.val % 41 = 40) :
    (outsAt0 m c t.val t.isLt).1
      = k0_pay5 (F := Ideal) (k0_pay6 (F := Ideal) (outsAt0 m c t.val t.isLt).2.1 (bwBlk m c t) (outsAt0 m c t.val t.isLt).2.2 (bbBlk m c t)
          (stmBlk m c t) (W1Blk m c t) (b1Blk m c t)) (k0_pay7 (F := Ideal) (W2Blk m c t))
          (constant (F := Ideal) S2048x32 .f32 0x00000000#32) (b2Blk m c t) (WoBlk m c t) (boBlk m c t) := by
  rw [acc0_is_update m c t h0 h40, acc1_is_update m c t h0 h40]
  rw [outsAt0_C m c t h0 h40]
  dsimp only
  exact Pieces.last_out (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun hh => h0 ((hcond0_0 t).mp hh)) ((hcond0_1 t).mpr h40) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.1 (outsAt0 m c (t.val - 1) (Nat.lt_of_le_of_lt (Nat.sub_le _ _) t.isLt)).2.2

/-- Entry (r, z) of that block is the specification's value at batch row 2048 * (t / 41) + r. -/
theorem out_block_apply (c : Dev nD) (t : Fin cfg0.N) (h0 : ¬t.val % 41 = 0) (h40 : t.val % 41 = 40) (r : Fin 2048) (z : Fin 1) :
    (outsAt0 m c t.val t.isLt).1 (ix2 r z)
      = row (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (rowOf t r) := by
  have hwa : (fun h : Fin 256 => (outsAt0 m c t.val t.isLt).2.1 (ix2 r h) + bwBlk m c t (ix2 (0 : Fin 1) h))
      = fun h : Fin 256 => feat (m ((c.tc : Thread nD τ).loc main_arg0)) (m ((c.tc : Thread nD τ).loc main_arg3)) (rowOf t r) h + (m ((c.tc : Thread nD τ).loc main_arg4)) (ix1 h) :=
    funext fun h => by rw [acc0_last m c t h40 r h, bw_blk m c t (0 : Fin 1) h]
  have hba : (fun h : Fin 256 => (outsAt0 m c t.val t.isLt).2.2 (ix2 r h) + bbBlk m c t (ix2 (0 : Fin 1) h))
      = fun h : Fin 256 => feat (m ((c.tc : Thread nD τ).loc main_arg1)) (m ((c.tc : Thread nD τ).loc main_arg5)) (rowOf t r) h + (m ((c.tc : Thread nD τ).loc main_arg6)) (ix1 h) :=
    funext fun h => by rw [acc1_last m c t h40 r h, bb_blk m c t (0 : Fin 1) h]
  have hs : stmBlk m c t (ix2 r (0 : Fin 1)) = (m ((c.tc : Thread nD τ).loc main_arg2)) (ix2 (rowOf t r) (0 : Fin 1)) := stm_blk m c t r (0 : Fin 1)
  have hW1 : (fun (o : Fin 32) (j : Fin 512) => W1Blk m c t (ix2 o j)) = fun (o : Fin 32) (j : Fin 512) => (m ((c.tc : Thread nD τ).loc main_arg7)) (ix2 o j) :=
    funext fun o => funext fun j => W1_blk m c t o j
  have hb1 : (fun o : Fin 32 => b1Blk m c t (ix2 (0 : Fin 1) o)) = fun o : Fin 32 => (m ((c.tc : Thread nD τ).loc main_arg8)) (ix1 o) :=
    funext fun o => b1_blk m c t (0 : Fin 1) o
  have hW2 : (fun (o : Fin 32) (j : Fin 32) => W2Blk m c t (ix2 o j)) = fun (o : Fin 32) (j : Fin 32) => (m ((c.tc : Thread nD τ).loc main_arg9)) (ix2 o j) :=
    funext fun o => funext fun j => W2_blk m c t o j
  have hb2 : (fun o : Fin 32 => b2Blk m c t (ix2 (0 : Fin 1) o)) = fun o : Fin 32 => (m ((c.tc : Thread nD τ).loc main_arg10)) (ix1 o) :=
    funext fun o => b2_blk m c t (0 : Fin 1) o
  have hWo : (fun j : Fin 32 => WoBlk m c t (ix2 (0 : Fin 1) j)) = fun j : Fin 32 => (m ((c.tc : Thread nD τ).loc main_arg11)) (ix2 (0 : Fin 1) j) :=
    funext fun j => Wo_blk m c t (0 : Fin 1) j
  have hbo : boBlk m c t (ix2 (0 : Fin 1) (0 : Fin 1)) = (m ((c.tc : Thread nD τ).loc main_arg12)) (ix1 (0 : Fin 1)) := bo_blk m c t (0 : Fin 1) (0 : Fin 1)
  have hh1 : (fun j : Fin 32 => k0_pay6 (F := Ideal) (outsAt0 m c t.val t.isLt).2.1 (bwBlk m c t) (outsAt0 m c t.val t.isLt).2.2 (bbBlk m c t)
        (stmBlk m c t) (W1Blk m c t) (b1Blk m c t) (ix2 r j))
      = hidden1 (fun h : Fin 256 => feat (m ((c.tc : Thread nD τ).loc main_arg0)) (m ((c.tc : Thread nD τ).loc main_arg3)) (rowOf t r) h + (m ((c.tc : Thread nD τ).loc main_arg4)) (ix1 h))
          (fun h : Fin 256 => feat (m ((c.tc : Thread nD τ).loc main_arg1)) (m ((c.tc : Thread nD τ).loc main_arg5)) (rowOf t r) h + (m ((c.tc : Thread nD τ).loc main_arg6)) (ix1 h))
          ((m ((c.tc : Thread nD τ).loc main_arg2)) (ix2 (rowOf t r) (0 : Fin 1))) (fun (o : Fin 32) (j : Fin 512) => (m ((c.tc : Thread nD τ).loc main_arg7)) (ix2 o j)) (fun o : Fin 32 => (m ((c.tc : Thread nD τ).loc main_arg8)) (ix1 o)) :=
    funext fun o => by rw [first_layer_apply, hwa, hba, hs, hW1, hb1]
  rw [out_block m c t h0 h40, last_layers_apply, hh1, hW2, hb2, hWo, hbo]
  rfl

/-- What a writing point writes back is its block of the specification's result array. -/
theorem flushed_eq (c : Dev nD) (t : Fin cfg0.N) (hf : (cfg0.win 13).flush t = true) :
    (dats m 0 c).flushed 13 t = ((cfg0.win 13).blk t).view.read (Elt Ideal) (specArr m c) := by
  have h40 : t.val % 41 = 40 := (flush0_13 t).mp hf
  have h0 : ¬t.val % 41 = 0 := by omega
  rw [flushed13 m c t]
  funext y
  obtain ⟨r, z, rfl⟩ : ∃ (r : Fin 2048) (z : Fin 1), y = ix2 r z := ⟨y 0, y 1, eq_ix2 y⟩
  show (outsAt0 m c t.val t.isLt).1 (ix2 r z) = specArr m c (((cfg0.win 13).blk t).view.emb (ix2 r z : S2048x1.Idx))
  rw [out_emb t r z, out_block_apply m c t h0 h40 r z]
  exact (result_ix2 _ _ _ _ _ _ _ _ _ _ _ _ _ (rowOf t r) (0 : Fin 1)).symm

/-- The result array after the run is the specification's. -/
theorem final (c : Dev nD) : (dats m 0 c).arrAt 13 cfg0.N = specArr m c :=
  (dats m 0 c).arrAt_eq_of_cover 13 (specArr m c) (flushed_eq m c) (fun i => out_cover i)

/-- The kernel's run: the result array at the specification's result, the thirteen arguments unchanged. -/
theorem run : θ_run defs (onTc (τ := τ) (main (F := Ideal))) ⟨m, fun _ => 0, ρ⟩ fun r => ∀ c : Dev nD,
      r.2.mem ((c.tc : Thread nD τ).loc main_v9) = specArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨(h c).1.trans (final m c), (h c).2⟩) (run_blocks m ρ)

end Cert.KernelIdeal.Final

end
-- ==== Proof.RefRead.lean ====
/-
  The reference program computes the specification.

  Read one operation at a time at an entry (b, 0): the two matrix products against the transposed weights are the
  sums over the 41920 features, the bias broadcasts add bw h and bb h, the two concatenations lay the accumulators
  side by side both ways, the side-to-move column is broadcast along the 512 columns, the clip calls are
  min 1 (max 0 x), and each later layer is a product against a transposed weight matrix plus a broadcast bias.
-/
import proofs.«127742_j78331613544881_1_alg».proof.Proof.Gen.ReferenceIdeal.Read
import proofs.«127742_j78331613544881_1_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.TwoPerspective

section Stages

variable (x0 x1 : (⟨S4096x41920, .f32⟩ : BufTy).Contents (Elt Ideal)) (x2 : (⟨S4096x1, .f32⟩ : BufTy).Contents (Elt Ideal))
    (x3 : (⟨S256x41920, .f32⟩ : BufTy).Contents (Elt Ideal)) (x4 : (⟨S256, .f32⟩ : BufTy).Contents (Elt Ideal))
    (x5 : (⟨S256x41920, .f32⟩ : BufTy).Contents (Elt Ideal)) (x6 : (⟨S256, .f32⟩ : BufTy).Contents (Elt Ideal))
    (x7 : (⟨S32x512, .f32⟩ : BufTy).Contents (Elt Ideal)) (x8 : (⟨S32, .f32⟩ : BufTy).Contents (Elt Ideal))
    (x9 : (⟨S32x32, .f32⟩ : BufTy).Contents (Elt Ideal)) (x10 : (⟨S32, .f32⟩ : BufTy).Contents (Elt Ideal))
    (x11 : (⟨S1x32, .f32⟩ : BufTy).Contents (Elt Ideal)) (x12 : (⟨S1, .f32⟩ : BufTy).Contents (Elt Ideal))

/-- Row b of the first perspective's accumulator: the feature sums against each weight row, plus the bias. -/
private abbrev accW (b : Fin 4096) : Fin 256 → EReal := fun h => feat x0 x3 b h + x4 (ix1 h)
/-- Row b of the second perspective's accumulator. -/
private abbrev accB (b : Fin 4096) : Fin 256 → EReal := fun h => feat x1 x5 b h + x6 (ix1 h)

/-- The first accumulator at (b, h): the product against the transposed weights is the sum over the features of
    white b f * Ww h f, and the bias, broadcast twice, is bw h. -/
private theorem accW_at (b : Fin 4096) (h : Fin 256) :
    val_main_v4 (F := Ideal) x0 x3 x4 (ix2 b h) = accW x0 x3 x4 b h := by
  rw [val_main_v4_apply, val_main_v1_apply, val_main_v3_apply, val_main_v2_apply, Ideal.addf_def]
  unfold accW feat
  refine congrArg₂ (· + ·) (Finset.sum_congr rfl fun k _ => ?_) (congrArg x4 ?_)
  · rw [val_main_v0_apply]
    exact congrArg₂ (· * ·)
      (congrArg x0 (funext fun a => Fin.ext (by match a with | ⟨0, _⟩ => rfl | ⟨1, _⟩ => rfl)))
      (congrArg x3 (funext fun a => Fin.ext (by match a with | ⟨0, _⟩ => rfl | ⟨1, _⟩ => rfl)))
  · exact funext fun a => Fin.ext (by match a with | ⟨0, _⟩ => rfl)

/-- The second accumulator at (b, h), read the same way. -/
private theorem accB_at (b : Fin 4096) (h : Fin 256) :
    val_main_v9 (F := Ideal) x1 x5 x6 (ix2 b h) = accB x1 x5 x6 b h := by
  rw [val_main_v9_apply, val_main_v6_apply, val_main_v8_apply, val_main_v7_apply, Ideal.addf_def]
  unfold accB feat
  refine congrArg₂ (· + ·) (Finset.sum_congr rfl fun k _ => ?_) (congrArg x6 ?_)
  · rw [val_main_v5_apply]
    exact congrArg₂ (· * ·)
      (congrArg x1 (funext fun a => Fin.ext (by match a with | ⟨0, _⟩ => rfl | ⟨1, _⟩ => rfl)))
      (congrArg x5 (funext fun a => Fin.ext (by match a with | ⟨0, _⟩ => rfl | ⟨1, _⟩ => rfl)))
  · exact funext fun a => Fin.ext (by match a with | ⟨0, _⟩ => rfl)

/-- The concatenation [first | second] at (b, j) lays the two accumulator rows side by side: a column below 256
    falls in the first piece at the same column, a later one in the second piece 256 columns earlier. -/
private theorem catWB_at (b : Fin 4096) (j : Fin 512) :
    val_main_v12 (F := Ideal) x0 x1 x3 x4 x5 x6 (ix2 b j) = side (accW x0 x3 x4 b) (accB x1 x5 x6 b) j := by
  unfold val_main_v12 side
  by_cases hj : j.val < 256
  · rw [dif_pos hj, concatenate_pair_apply_left (1 : Fin S4096x512.rank) _ _ concatenates_S4096x256_S4096x256_S4096x512_d1
      (ix2 b j) rfl (ix2 b (⟨j.val, hj⟩ : Fin 256)) (fun a => by match a with | ⟨0, _⟩ => rfl | ⟨1, _⟩ => rfl)]
    exact accW_at x0 x3 x4 b ⟨j.val, hj⟩
  · have hlt : j.val - 256 < 256 := by have := j.isLt; omega
    rw [dif_neg hj, concatenate_pair_apply_right (1 : Fin S4096x512.rank) _ _ concatenates_S4096x256_S4096x256_S4096x512_d1
      (ix2 b j) rfl rfl (ix2 b (⟨j.val - 256, hlt⟩ : Fin 256))
      (fun a ha => by match a, ha with | ⟨0, _⟩, _ => rfl | ⟨1, _⟩, ha => exact absurd rfl ha)
      (by show j.val - 256 + 256 = j.val; omega)]
    exact accB_at x1 x5 x6 b ⟨j.val - 256, hlt⟩

/-- The concatenation the other way round, [second | first]. -/
private theorem catBW_at (b : Fin 4096) (j : Fin 512) :
    val_main_v15 (F := Ideal) x0 x1 x3 x4 x5 x6 (ix2 b j) = side (accB x1 x5 x6 b) (accW x0 x3 x4 b) j := by
  unfold val_main_v15 side
  by_cases hj : j.val < 256
  · rw [dif_pos hj, concatenate_pair_apply_left (1 : Fin S4096x512.rank) _ _ concatenates_S4096x256_S4096x256_S4096x512_d1
      (ix2 b j) rfl (ix2 b (⟨j.val, hj⟩ : Fin 256)) (fun a => by match a with | ⟨0, _⟩ => rfl | ⟨1, _⟩ => rfl)]
    exact accB_at x1 x5 x6 b ⟨j.val, hj⟩
  · have hlt : j.val - 256 < 256 := by have := j.isLt; omega
    rw [dif_neg hj, concatenate_pair_apply_right (1 : Fin S4096x512.rank) _ _ concatenates_S4096x256_S4096x256_S4096x512_d1
      (ix2 b j) rfl rfl (ix2 b (⟨j.val - 256, hlt⟩ : Fin 256))
      (fun a ha => by match a, ha with | ⟨0, _⟩, _ => rfl | ⟨1, _⟩, ha => exact absurd rfl ha)
      (by show j.val - 256 + 256 = j.val; omega)]
    exact accW_at x0 x3 x4 b ⟨j.val - 256, hlt⟩

/-- The mix at (b, j): one minus the side-to-move entry of row b times the first concatenation, plus that entry times
    the second; both broadcasts read the side-to-move column at (b, 0). -/
private theorem mix_at (b : Fin 4096) (j : Fin 512) :
    val_main_v18 (F := Ideal) x0 x1 x2 x3 x4 x5 x6 (ix2 b j)
      = mix (accW x0 x3 x4 b) (accB x1 x5 x6 b) (x2 (ix2 b (0 : Fin 1))) j := by
  rw [val_main_v18_apply, val_main_v14_apply, val_main_v17_apply, val_main_v13_apply, val_main_v11_apply,
    val_main_v10_apply, val_main_cst_apply, val_main_v16_apply, catWB_at, catBW_at,
    show idx_main_v13 (ix2 b j) = ix2 b (0 : Fin 1) from
      funext fun a => Fin.ext (by match a with | ⟨0, _⟩ => rfl | ⟨1, _⟩ => rfl),
    show idx_main_v16 (ix2 b j) = ix2 b (0 : Fin 1) from
      funext fun a => Fin.ext (by match a with | ⟨0, _⟩ => rfl | ⟨1, _⟩ => rfl)]
  rfl

/-- The first clip call at (b, j): the two broadcast constants are the words of 0 and 1. -/
private theorem clipMix_at (b : Fin 4096) (j : Fin 512) :
    val_main_v19 (F := Ideal) x0 x1 x2 x3 x4 x5 x6 (ix2 b j)
      = clip (mix (accW x0 x3 x4 b) (accB x1 x5 x6 b) (x2 (ix2 b (0 : Fin 1))) j) := by
  rw [val_main_v19_apply, val_main_call0_v4_apply, val_main_call0_v3_apply, val_main_cst_1_apply,
    val_main_call0_v2_apply, val_main_call0_v1_apply, val_main_call0_v0_apply, val_main_cst_0_apply, mix_at]
  rfl

/-- The first layer's output o at row b, clipped: the product against the transposed weights is the sum over the
    512 columns of the clipped mix times W1 o k, the bias is b1 o. -/
private theorem hidden1_at (b : Fin 4096) (o : Fin 32) :
    val_main_v25 (F := Ideal) x0 x1 x2 x3 x4 x5 x6 x7 x8 (ix2 b o)
      = hidden1 (accW x0 x3 x4 b) (accB x1 x5 x6 b) (x2 (ix2 b (0 : Fin 1)))
          (fun o j => x7 (ix2 o j)) (fun o => x8 (ix1 o)) o := by
  rw [val_main_v25_apply, val_main_call1_v4_apply, val_main_call1_v3_apply, val_main_cst_3_apply,
    val_main_call1_v2_apply, val_main_call1_v1_apply, val_main_call1_v0_apply, val_main_cst_2_apply,
    val_main_v24_apply, val_main_v21_apply, val_main_v23_apply, val_main_v22_apply]
  have hs : ∀ k : Fin 512,
      val_main_v19 (F := Ideal) x0 x1 x2 x3 x4 x5 x6 (lidx_main_v21 (ix2 b o) k)
          * val_main_v20 (F := Ideal) x7 (ridx_main_v21 (ix2 b o) k)
        = clip (mix (accW x0 x3 x4 b) (accB x1 x5 x6 b) (x2 (ix2 b (0 : Fin 1))) k) * x7 (ix2 o k) := fun k => by
    rw [val_main_v20_apply,
      show lidx_main_v21 (ix2 b o) k = ix2 b k from
        funext fun a => Fin.ext (by match a with | ⟨0, _⟩ => rfl | ⟨1, _⟩ => rfl),
      show idx_main_v20 (ridx_main_v21 (ix2 b o) k) = ix2 o k from
        funext fun a => Fin.ext (by match a with | ⟨0, _⟩ => rfl | ⟨1, _⟩ => rfl),
      clipMix_at]
  rw [Finset.sum_congr rfl (fun k _ => hs k),
    show idx_main_v22 (idx_main_v23 (ix2 b o)) = ix1 o from
      funext fun a => Fin.ext (by match a with | ⟨0, _⟩ => rfl)]
  rfl

/-- The second layer's output k at row b, clipped, over the clipped first-layer outputs. -/
private theorem hidden2_at (b : Fin 4096) (k : Fin 32) :
    val_main_v31 (F := Ideal) x0 x1 x2 x3 x4 x5 x6 x7 x8 x9 x10 (ix2 b k)
      = clip (dense (hidden1 (accW x0 x3 x4 b) (accB x1 x5 x6 b) (x2 (ix2 b (0 : Fin 1)))
          (fun o j => x7 (ix2 o j)) (fun o => x8 (ix1 o))) (fun j => x9 (ix2 k j)) (x10 (ix1 k))) := by
  rw [val_main_v31_apply, val_main_call2_v4_apply, val_main_call2_v3_apply, val_main_cst_5_apply,
    val_main_call2_v2_apply, val_main_call2_v1_apply, val_main_call2_v0_apply, val_main_cst_4_apply,
    val_main_v30_apply, val_main_v27_apply, val_main_v29_apply, val_main_v28_apply]
  have hs : ∀ j : Fin 32,
      val_main_v25 (F := Ideal) x0 x1 x2 x3 x4 x5 x6 x7 x8 (lidx_main_v27 (ix2 b k) j)
          * val_main_v26 (F := Ideal) x9 (ridx_main_v27 (ix2 b k) j)
        = hidden1 (accW x0 x3 x4 b) (accB x1 x5 x6 b) (x2 (ix2 b (0 : Fin 1)))
            (fun o j => x7 (ix2 o j)) (fun o => x8 (ix1 o)) j * x9 (ix2 k j) := fun j => by
    rw [val_main_v26_apply,
      show lidx_main_v27 (ix2 b k) j = ix2 b j from
        funext fun a => Fin.ext (by match a with | ⟨0, _⟩ => rfl | ⟨1, _⟩ => rfl),
      show idx_main_v26 (ridx_main_v27 (ix2 b k) j) = ix2 k j from
        funext fun a => Fin.ext (by match a with | ⟨0, _⟩ => rfl | ⟨1, _⟩ => rfl),
      hidden1_at]
  rw [Finset.sum_congr rfl (fun j _ => hs j),
    show idx_main_v28 (idx_main_v29 (ix2 b k)) = ix1 k from
      funext fun a => Fin.ext (by match a with | ⟨0, _⟩ => rfl)]
  rfl

/-- The last stage at (b, 0): the third layer over the clipped second-layer outputs, which is the row function. -/
private theorem out_at (b : Fin 4096) :
    val_main_v36 (F := Ideal) x0 x1 x2 x3 x4 x5 x6 x7 x8 x9 x10 x11 x12 (ix2 b (0 : Fin 1))
      = row x0 x1 x2 x3 x4 x5 x6 x7 x8 x9 x10 x11 x12 b := by
  rw [val_main_v36_apply, val_main_v33_apply, val_main_v35_apply, val_main_v34_apply]
  have hs : ∀ k : Fin 32,
      val_main_v31 (F := Ideal) x0 x1 x2 x3 x4 x5 x6 x7 x8 x9 x10 (lidx_main_v33 (ix2 b (0 : Fin 1)) k)
          * val_main_v32 (F := Ideal) x11 (ridx_main_v33 (ix2 b (0 : Fin 1)) k)
        = clip (dense (hidden1 (accW x0 x3 x4 b) (accB x1 x5 x6 b) (x2 (ix2 b (0 : Fin 1)))
            (fun o j => x7 (ix2 o j)) (fun o => x8 (ix1 o))) (fun j => x9 (ix2 k j)) (x10 (ix1 k)))
          * x11 (ix2 (0 : Fin 1) k) := fun k => by
    rw [val_main_v32_apply,
      show lidx_main_v33 (ix2 b (0 : Fin 1)) k = ix2 b k from
        funext fun a => Fin.ext (by match a with | ⟨0, _⟩ => rfl | ⟨1, _⟩ => rfl),
      show idx_main_v32 (ridx_main_v33 (ix2 b (0 : Fin 1)) k) = ix2 (0 : Fin 1) k from
        funext fun a => Fin.ext (by match a with | ⟨0, _⟩ => rfl | ⟨1, _⟩ => rfl),
      hidden2_at]
  rw [Finset.sum_congr rfl (fun k _ => hs k),
    show idx_main_v34 (idx_main_v35 (ix2 b (0 : Fin 1))) = ix1 (0 : Fin 1) from
      funext fun a => Fin.ext (by match a with | ⟨0, _⟩ => rfl)]
  rfl

end Stages

/-- The reference's last stage is the specification's result array. -/
theorem ref_is_result (x0 x1 : (⟨S4096x41920, .f32⟩ : BufTy).Contents (Elt Ideal)) (x2 : (⟨S4096x1, .f32⟩ : BufTy).Contents (Elt Ideal))
    (x3 : (⟨S256x41920, .f32⟩ : BufTy).Contents (Elt Ideal)) (x4 : (⟨S256, .f32⟩ : BufTy).Contents (Elt Ideal))
    (x5 : (⟨S256x41920, .f32⟩ : BufTy).Contents (Elt Ideal)) (x6 : (⟨S256, .f32⟩ : BufTy).Contents (Elt Ideal))
    (x7 : (⟨S32x512, .f32⟩ : BufTy).Contents (Elt Ideal)) (x8 : (⟨S32, .f32⟩ : BufTy).Contents (Elt Ideal))
    (x9 : (⟨S32x32, .f32⟩ : BufTy).Contents (Elt Ideal)) (x10 : (⟨S32, .f32⟩ : BufTy).Contents (Elt Ideal))
    (x11 : (⟨S1x32, .f32⟩ : BufTy).Contents (Elt Ideal)) (x12 : (⟨S1, .f32⟩ : BufTy).Contents (Elt Ideal)) :
    val_main_v36 (F := Ideal) x0 x1 x2 x3 x4 x5 x6 x7 x8 x9 x10 x11 x12
      = result x0 x1 x2 x3 x4 x5 x6 x7 x8 x9 x10 x11 x12 := by
  funext i
  obtain ⟨b, z, rfl⟩ : ∃ (b : Fin 4096) (z : Fin 1), i = ix2 b z := ⟨i 0, i 1, eq_ix2 i⟩
  obtain rfl : z = 0 := Subsingleton.elim z 0
  rw [result_ix2]
  exact out_at x0 x1 x2 x3 x4 x5 x6 x7 x8 x9 x10 x11 x12 b

end Cert.ReferenceIdeal.RefValue

end
-- ==== Proof.lean ====
/-
  Equivalence over the extended reals of a two-perspective feature network: a tiled kernel against its jnp reference.

  The network reads two [4096, 41920] feature arrays (one per perspective) and a side-to-move column; per batch row it
  forms two 256-wide accumulators (feature row times weight row, summed over the 41920 features, plus a bias), mixes
  them by the side to move as (1 - s) * [wa | ba] + s * [ba | wa], and applies three dense layers 512 -> 32 -> 32 -> 1,
  each fed the previous values clipped to [0, 1].
  The reference computes this with whole-array operations. The kernel pads the feature axis with 64 zero columns to
  41 tiles of 1024, walks a 2 x 41 grid (batch half, feature tile) accumulating each tile's product into scratch
  memory, and at the last tile of a batch half applies the mix and the layers to its 2048 rows and writes them back.
  Over the extended reals the two agree: a padded column contributes 0 * 0 = 0, the 41 tile sums regroup the one sum
  over the features (addition is commutative and associative; no finiteness of the inputs is needed), and from the
  accumulators on both programs apply the same operations, with the same two float literals 1.0 and 0.0, in the same
  order. The ideal pass rewrote nothing, so the kernel's idealization is its own text read over the extended reals.
  The three frames are the generated frame certificates (the reference's is its generated run with the result dropped).
-/
import proofs.«127742_j78331613544881_1_alg».proof.Defs
import proofs.«127742_j78331613544881_1_alg».proof.Proof.Gen.Kernel
import proofs.«127742_j78331613544881_1_alg».proof.Proof.Gen.Kernel.Skeleton
import proofs.«127742_j78331613544881_1_alg».proof.Proof.Gen.Kernel.Launch
import proofs.«127742_j78331613544881_1_alg».proof.Proof.Gen.Kernel.Points
import proofs.«127742_j78331613544881_1_alg».proof.Proof.Gen.Kernel.Frame
import proofs.«127742_j78331613544881_1_alg».proof.Proof.Gen.KernelIdeal
import proofs.«127742_j78331613544881_1_alg».proof.Proof.Gen.KernelIdeal.Skeleton
import proofs.«127742_j78331613544881_1_alg».proof.Proof.Gen.KernelIdeal.Launch
import proofs.«127742_j78331613544881_1_alg».proof.Proof.Gen.KernelIdeal.Points
import proofs.«127742_j78331613544881_1_alg».proof.Proof.Gen.KernelIdeal.Frame
import proofs.«127742_j78331613544881_1_alg».proof.Proof.Gen.ReferenceIdeal
import proofs.«127742_j78331613544881_1_alg».proof.Proof.Gen.Pre_finite_inputs
import proofs.«127742_j78331613544881_1_alg».proof.Proof.Gen.KernelIdeal.Value
import proofs.«127742_j78331613544881_1_alg».proof.Proof.Gen.ReferenceIdeal.Run
import proofs.«127742_j78331613544881_1_alg».proof.Proof.Gen.ReferenceIdeal.Read
import proofs.«127742_j78331613544881_1_alg».proof.Proof.Final
import proofs.«127742_j78331613544881_1_alg».proof.Proof.RefRead
import Idealize.ShloMosaic.Adequacy
import Idealize.ShloMosaic.Init

noncomputable section

namespace Cert.Proof

open Idealize.ShloMosaic Idealize.SL.Sem

/-- The word-level kernel terminates without a fault and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with what it computes dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the thirteen arguments both programs end with the specification's result array. -/
theorem algebraic : Cert.algebraic_KernelIdeal_ReferenceIdeal := by
  intro m ρ m' ρ' _ hagree
  refine ⟨fun c => Cert.KernelIdeal.Final.specArr m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12⟩ := hagree c
  rw [Cert.ReferenceIdeal.Read.val_main_v36_eq, Cert.ReferenceIdeal.RefValue.ref_is_result,
    a0, a1, a2, a3, a4, a5, a6, a7, a8, a9, a10, a11, a12]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
